-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6400000x1 : Shape := ⟨2, ![6400000, 1]⟩
abbrev S16x16 : Shape := ⟨2, ![16, 16]⟩
abbrev S2x6400000 : Shape := ⟨2, ![2, 6400000]⟩
abbrev S100000 : Shape := ⟨1, ![100000]⟩
abbrev S_ : Shape := ⟨0, ![]⟩

class Facts : Prop where
  bcast_S_S6400000x1 : S_.BroadcastsInDim S6400000x1 (![] : Fin 0 → Fin S6400000x1.rank)
  reducesTo_S6400000x1_S_d0_1 : S6400000x1.ReducesTo [0, 1] S_
  h_S_ : 0 < S_.numel
  bcast_S_S16x16 : S_.BroadcastsInDim S16x16 (![] : Fin 0 → Fin S16x16.rank)
  reducesTo_S16x16_S_d0_1 : S16x16.ReducesTo [0, 1] S_
  bcast_S_S100000 : S_.BroadcastsInDim S100000 (![] : Fin 0 → Fin S100000.rank)
  reducesTo_S100000_S_d0 : S100000.ReducesTo [0] S_

variable [Facts]

def fn {F : FTy → Type} [FloatOps F] (main_arg0 : FVec F S6400000x1 .f32) (main_arg1 : FVec F S16x16 .f32) (main_arg2 : IVec S2x6400000 32) (main_arg3 : IVec S100000 32) : IVec S_ 1 :=
  let main_v0 : FVec F S6400000x1 .f32 := Host.absf main_arg0
  let main_cst : FVec F S_ .f32 := constant S_ .f32 0x7F800000#32
  let main_v1 : FVec F S6400000x1 .f32 := broadcastInDim S6400000x1 ![] bcast_S_S6400000x1 main_cst
  let main_v2 : IVec S6400000x1 1 := cmpf .olt main_v0 main_v1
  let main_c : IVec S_ 1 := constantI S_ 1 1#1
  let main_v3 : IVec S_ 1 := (fun x v => Host.reduce IntOp.andi x v reducesTo_S6400000x1_S_d0_1 h_S_) main_v2 main_c
  let main_v4 : FVec F S16x16 .f32 := Host.absf main_arg1
  let main_cst_0 : FVec F S_ .f32 := constant S_ .f32 0x7F800000#32
  let main_v5 : FVec F S16x16 .f32 := broadcastInDim S16x16 ![] bcast_S_S16x16 main_cst_0
  let main_v6 : IVec S16x16 1 := cmpf .olt main_v4 main_v5
  let main_c_1 : IVec S_ 1 := constantI S_ 1 1#1
  let main_v7 : IVec S_ 1 := (fun x v => Host.reduce IntOp.andi x v reducesTo_S16x16_S_d0_1 h_S_) main_v6 main_c_1
  let main_v8 : IVec S_ 1 := andi main_v3 main_v7
  let main_c_2 : IVec S_ 32 := constantI S_ 32 0#32
  let main_v9 : IVec S100000 32 := broadcastInDim S100000 ![] bcast_S_S100000 main_c_2
  let main_v10 : IVec S100000 1 := cmpi .sge main_arg3 main_v9
  let main_c_3 : IVec S_ 32 := constantI S_ 32 16#32
  let main_v11 : IVec S100000 32 := broadcastInDim S100000 ![] bcast_S_S100000 main_c_3
  let main_v12 : IVec S100000 1 := cmpi .slt main_arg3 main_v11
  let main_v13 : IVec S100000 1 := andi main_v10 main_v12
  let main_c_4 : IVec S_ 1 := constantI S_ 1 1#1
  let main_v14 : IVec S_ 1 := (fun x v => Host.reduce IntOp.andi x v reducesTo_S100000_S_d0 h_S_) main_v13 main_c_4
  let main_v15 : IVec S_ 1 := andi main_v8 main_v14
  main_v15
-- ==== Kernel.lean ====
abbrev S6400000x1 : Shape := ⟨2, ![6400000, 1]⟩
abbrev S16x16 : Shape := ⟨2, ![16, 16]⟩
abbrev S2x6400000 : Shape := ⟨2, ![2, 6400000]⟩
abbrev S100000 : Shape := ⟨1, ![100000]⟩
abbrev S1x6400000 : Shape := ⟨2, ![1, 6400000]⟩
abbrev S6400000 : Shape := ⟨1, ![6400000]⟩
abbrev S_ : Shape := ⟨0, ![]⟩
abbrev S50000x128 : Shape := ⟨2, ![50000, 128]⟩
abbrev S1000x128 : Shape := ⟨2, ![1000, 128]⟩
abbrev S128000 : Shape := ⟨1, ![128000]⟩
abbrev S1x128000 : Shape := ⟨2, ![1, 128000]⟩
abbrev S16x128000 : Shape := ⟨2, ![16, 128000]⟩
abbrev S100000x1 : Shape := ⟨2, ![100000, 1]⟩

abbrev nBuf : Space → Nat
  | .hbm => 40
  | .vmem => 9
  | .smem => 0
  | _ => 0

abbrev bufTy : (tb : Table) → Fin (tcTables nBuf tb) → BufTy
  | .hbm, ⟨0, _⟩ => ⟨S6400000x1, .f32⟩
  | .hbm, ⟨1, _⟩ => ⟨S16x16, .f32⟩
  | .hbm, ⟨2, _⟩ => ⟨S2x6400000, .i32⟩
  | .hbm, ⟨3, _⟩ => ⟨S100000, .i32⟩
  | .hbm, ⟨4, _⟩ => ⟨S1x6400000, .i32⟩
  | .hbm, ⟨5, _⟩ => ⟨S6400000, .i32⟩
  | .hbm, ⟨6, _⟩ => ⟨S1x6400000, .i32⟩
  | .hbm, ⟨7, _⟩ => ⟨S6400000, .i32⟩
  | .hbm, ⟨8, _⟩ => ⟨S_, .i32⟩
  | .hbm, ⟨9, _⟩ => ⟨S6400000, .i32⟩
  | .hbm, ⟨10, _⟩ => ⟨S6400000, .i1⟩
  | .hbm, ⟨11, _⟩ => ⟨S_, .i32⟩
  | .hbm, ⟨12, _⟩ => ⟨S6400000, .i32⟩
  | .hbm, ⟨13, _⟩ => ⟨S6400000, .i32⟩
  | .hbm, ⟨14, _⟩ => ⟨S6400000, .i32⟩
  | .hbm, ⟨15, _⟩ => ⟨S6400000x1, .i32⟩
  | .hbm, ⟨16, _⟩ => ⟨S6400000, .i32⟩
  | .hbm, ⟨17, _⟩ => ⟨S_, .i32⟩
  | .hbm, ⟨18, _⟩ => ⟨S6400000, .i32⟩
  | .hbm, ⟨19, _⟩ => ⟨S6400000, .i1⟩
  | .hbm, ⟨20, _⟩ => ⟨S_, .i32⟩
  | .hbm, ⟨21, _⟩ => ⟨S6400000, .i32⟩
  | .hbm, ⟨22, _⟩ => ⟨S6400000, .i32⟩
  | .hbm, ⟨23, _⟩ => ⟨S6400000, .i32⟩
  | .hbm, ⟨24, _⟩ => ⟨S6400000x1, .i32⟩
  | .hbm, ⟨25, _⟩ => ⟨S6400000, .i32⟩
  | .hbm, ⟨26, _⟩ => ⟨S6400000, .f32⟩
  | .hbm, ⟨27, _⟩ => ⟨S50000x128, .i32⟩
  | .hbm, ⟨28, _⟩ => ⟨S50000x128, .i32⟩
  | .hbm, ⟨29, _⟩ => ⟨S50000x128, .f32⟩
  | .hbm, ⟨30, _⟩ => ⟨S50000x128, .f32⟩
  | .hbm, ⟨31, _⟩ => ⟨S6400000, .f32⟩
  | .hbm, ⟨32, _⟩ => ⟨S6400000x1, .f32⟩
  | .hbm, ⟨33, _⟩ => ⟨S_, .f32⟩
  | .hbm, ⟨34, _⟩ => ⟨S100000x1, .f32⟩
  | .hbm, ⟨35, _⟩ => ⟨S6400000x1, .i32⟩
  | .hbm, ⟨36, _⟩ => ⟨S100000x1, .f32⟩
  | .hbm, ⟨37, _⟩ => ⟨S_, .f32⟩
  | .hbm, ⟨38, _⟩ => ⟨S100000x1, .f32⟩
  | .hbm, ⟨39, _⟩ => ⟨S100000x1, .f32⟩
  | .local _ .vmem, ⟨0, _⟩ => ⟨S1000x128, .i32⟩
  | .local _ .vmem, ⟨1, _⟩ => ⟨S1000x128, .i32⟩
  | .local _ .vmem, ⟨2, _⟩ => ⟨S1000x128, .i32⟩
  | .local _ .vmem, ⟨3, _⟩ => ⟨S1000x128, .i32⟩
  | .local _ .vmem, ⟨4, _⟩ => ⟨S1000x128, .f32⟩
  | .local _ .vmem, ⟨5, _⟩ => ⟨S1000x128, .f32⟩
  | .local _ .vmem, ⟨6, _⟩ => ⟨S16x16, .f32⟩
  | .local _ .vmem, ⟨7, _⟩ => ⟨S1000x128, .f32⟩
  | .local _ .vmem, ⟨8, _⟩ => ⟨S1000x128, .f32⟩
  | _, _ => ⟨S6400000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  shapeCasts_S6400000x1_S6400000 : S6400000x1.ShapeCasts S6400000
  shapeCasts_S6400000_S50000x128 : S6400000.ShapeCasts S50000x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  shapeCasts_S1000x128_S128000 : S1000x128.ShapeCasts S128000
  natLt_1_32 : 1 < 32
  bitsLt_bf16_f32 : FTy.bits .bf16 < FTy.bits .f32
  shapeCasts_S128000_S1x128000 : S128000.ShapeCasts S1x128000
  concatenates_S1x128000_S1x128000_S1x128000_S1x128000_S1x128000_S1x128000_S1x128000_S1x128000_S1x128000_S1x128000_S1x128000_S1x128000_S1x128000_S1x128000_S1x128000_S1x128000_S16x128000_d0 : Shape.Concatenates [S1x128000, S1x128000, S1x128000, S1x128000, S1x128000, S1x128000, S1x128000, S1x128000, S1x128000, S1x128000, S1x128000, S1x128000, S1x128000, S1x128000, S1x128000, S1x128000] S16x128000 0
  inb_S16x16_S16x16_0_0 : ∀ a, (![0, 0] : Fin 2 → Nat) a + S16x16.size a ≤ S16x16.size a
  h_S16x16 : 0 < S16x16.numel
  reduces_S16x128000_S128000 : S16x128000.Reduces [0] S128000
  shapeCasts_S128000_S1000x128 : S128000.ShapeCasts S1000x128
  shapeCasts_S50000x128_S6400000 : S50000x128.ShapeCasts S6400000
  bcast_S_S100000x1 : S_.BroadcastsInDim S100000x1 (![] : Fin 0 → Fin S100000x1.rank)
  gather_S100000_S6400000x1_S6400000_n_0_n_n_0_1_1_wf : GatherDims.WF S100000 S6400000x1 S6400000 [] [0] [] [0] [] 1 ![1]
  dot_S16x16_S16x128000_S16x128000_1_0_0_1_n_n_wf : DotDims.WF S16x16 S16x128000 S16x128000 [1] [0] [0] [1] [] []
  scatter_S100000x1_S6400000x1_S6400000x1_1_0_0_1_wf : ScatterDims.WF S100000x1 S6400000x1 S6400000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .i32 = 32 ∨ (Rect.block (s := S50000x128) S1000x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S50000x128.size a
  hwx0_1 : ∀ i : grid0.Coords, EltTy.bits .i32 = 32 ∨ (Rect.block (s := S50000x128) S1000x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S50000x128.size a
  hwx0_2 : ∀ i : grid0.Coords, EltTy.bits .f32 = 32 ∨ (Rect.block (s := S50000x128) S1000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x16.size a ≤ S16x16.size a
  hwx0_3 : ∀ i : grid0.Coords, EltTy.bits .f32 = 32 ∨ (Rect.block (s := S16x16) S16x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x128.size a ≤ S50000x128.size a
  hwx0_4 : ∀ i : grid0.Coords, EltTy.bits .f32 = 32 ∨ (Rect.block (s := S50000x128) S1000x128.size (cc0_transform_4 i) (hinb0_4 i)).WholeWords (EltTy.packing .f32)

variable [Facts₀]

def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf
def dot_S16x16_S16x128000_S16x128000_1_0_0_1_n_n : DotDims S16x16 S16x128000 S16x128000 where
  lhsContracting := [1]
  rhsContracting := [0]
  lhsNonContracting := [0]
  rhsNonContracting := [1]
  lhsBatch := []
  rhsBatch := []
  wf := dot_S16x16_S16x128000_S16x128000_1_0_0_1_n_n_wf
def scatter_S100000x1_S6400000x1_S6400000x1_1_0_0_1 : ScatterDims S100000x1 S6400000x1 S6400000x1 where
  updateWindowDims := [1]
  insertedWindowDims := [0]
  scatterDimsToOperandDims := [0]
  indexVectorDim := 1
  wf := scatter_S100000x1_S6400000x1_S6400000x1_1_0_0_1_wf

abbrev win0_0 : Pipeline.Window sig grid0 :=
  Pipeline.Window.ofSpec (Memref.whole main_v19) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S16x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S6400000x1 : Shape := ⟨2, ![6400000, 1]⟩
abbrev S16x16 : Shape := ⟨2, ![16, 16]⟩
abbrev S2x6400000 : Shape := ⟨2, ![2, 6400000]⟩
abbrev S100000 : Shape := ⟨1, ![100000]⟩
abbrev S1x6400000 : Shape := ⟨2, ![1, 6400000]⟩
abbrev S6400000 : Shape := ⟨1, ![6400000]⟩
abbrev S_ : Shape := ⟨0, ![]⟩
abbrev S6400000x2 : Shape := ⟨2, ![6400000, 2]⟩
abbrev S100000x1 : Shape := ⟨2, ![100000, 1]⟩

abbrev nBuf : Space → Nat
  | .hbm => 53
  | .vmem => 0
  | .smem => 0
  | _ => 0

abbrev bufTy : (tb : Table) → Fin (tcTables nBuf tb) → BufTy
  | .hbm, ⟨0, _⟩ => ⟨S6400000x1, .f32⟩
  | .hbm, ⟨1, _⟩ => ⟨S16x16, .f32⟩
  | .hbm, ⟨2, _⟩ => ⟨S2x6400000, .i32⟩
  | .hbm, ⟨3, _⟩ => ⟨S100000, .i32⟩
  | .hbm, ⟨4, _⟩ => ⟨S1x6400000, .i32⟩
  | .hbm, ⟨5, _⟩ => ⟨S6400000, .i32⟩
  | .hbm, ⟨6, _⟩ => ⟨S1x6400000, .i32⟩
  | .hbm, ⟨7, _⟩ => ⟨S6400000, .i32⟩
  | .hbm, ⟨8, _⟩ => ⟨S_, .i32⟩
  | .hbm, ⟨9, _⟩ => ⟨S6400000, .i32⟩
  | .hbm, ⟨10, _⟩ => ⟨S6400000, .i1⟩
  | .hbm, ⟨11, _⟩ => ⟨S_, .i32⟩
  | .hbm, ⟨12, _⟩ => ⟨S6400000, .i32⟩
  | .hbm, ⟨13, _⟩ => ⟨S6400000, .i32⟩
  | .hbm, ⟨14, _⟩ => ⟨S6400000, .i32⟩
  | .hbm, ⟨15, _⟩ => ⟨S6400000x1, .i32⟩
  | .hbm, ⟨16, _⟩ => ⟨S6400000, .i32⟩
  | .hbm, ⟨17, _⟩ => ⟨S_, .i32⟩
  | .hbm, ⟨18, _⟩ => ⟨S6400000, .i32⟩
  | .hbm, ⟨19, _⟩ => ⟨S6400000, .i1⟩
  | .hbm, ⟨20, _⟩ => ⟨S_, .i32⟩
  | .hbm, ⟨21, _⟩ => ⟨S6400000, .i32⟩
  | .hbm, ⟨22, _⟩ => ⟨S6400000, .i32⟩
  | .hbm, ⟨23, _⟩ => ⟨S6400000, .i32⟩
  | .hbm, ⟨24, _⟩ => ⟨S6400000x1, .i32⟩
  | .hbm, ⟨25, _⟩ => ⟨S6400000, .i32⟩
  | .hbm, ⟨26, _⟩ => ⟨S_, .i32⟩
  | .hbm, ⟨27, _⟩ => ⟨S6400000, .i32⟩
  | .hbm, ⟨28, _⟩ => ⟨S6400000, .i1⟩
  | .hbm, ⟨29, _⟩ => ⟨S_, .i32⟩
  | .hbm, ⟨30, _⟩ => ⟨S6400000, .i32⟩
  | .hbm, ⟨31, _⟩ => ⟨S6400000, .i32⟩
  | .hbm, ⟨32, _⟩ => ⟨S6400000, .i32⟩
  | .hbm, ⟨33, _⟩ => ⟨S_, .i32⟩
  | .hbm, ⟨34, _⟩ => ⟨S6400000, .i32⟩
  | .hbm, ⟨35, _⟩ => ⟨S6400000, .i1⟩
  | .hbm, ⟨36, _⟩ => ⟨S_, .i32⟩
  | .hbm, ⟨37, _⟩ => ⟨S6400000, .i32⟩
  | .hbm, ⟨38, _⟩ => ⟨S6400000, .i32⟩
  | .hbm, ⟨39, _⟩ => ⟨S6400000, .i32⟩
  | .hbm, ⟨40, _⟩ => ⟨S6400000x1, .i32⟩
  | .hbm, ⟨41, _⟩ => ⟨S6400000x1, .i32⟩
  | .hbm, ⟨42, _⟩ => ⟨S6400000x2, .i32⟩
  | .hbm, ⟨43, _⟩ => ⟨S6400000, .f32⟩
  | .hbm, ⟨44, _⟩ => ⟨S6400000x1, .f32⟩
  | .hbm, ⟨45, _⟩ => ⟨S6400000x1, .f32⟩
  | .hbm, ⟨46, _⟩ => ⟨S_, .f32⟩
  | .hbm, ⟨47, _⟩ => ⟨S100000x1, .f32⟩
  | .hbm, ⟨48, _⟩ => ⟨S6400000x1, .i32⟩
  | .hbm, ⟨49, _⟩ => ⟨S100000x1, .f32⟩
  | .hbm, ⟨50, _⟩ => ⟨S_, .f32⟩
  | .hbm, ⟨51, _⟩ => ⟨S100000x1, .f32⟩
  | .hbm, ⟨52, _⟩ => ⟨S100000x1, .f32⟩
  | _, _ => ⟨S6400000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_3 : Ref sig .tc := ⟨.hbm, 26, rfl⟩
abbrev main_v18 : Ref sig .tc := ⟨.hbm, 27, rfl⟩
abbrev main_v19 : Ref sig .tc := ⟨.hbm, 28, rfl⟩
abbrev main_c_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_5 : Ref sig .tc := ⟨.hbm, 33, rfl⟩
abbrev main_v23 : Ref sig .tc := ⟨.hbm, 34, rfl⟩
abbrev main_v24 : Ref sig .tc := ⟨.hbm, 35, rfl⟩
abbrev main_c_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  concatenates_S6400000x1_S6400000x1_S6400000x2_d1 : Shape.Concatenates [S6400000x1, S6400000x1] S6400000x2 1
  bcast_S_S100000x1 : S_.BroadcastsInDim S100000x1 (![] : Fin 0 → Fin S100000x1.rank)
  gather_S100000_S6400000x1_S6400000_n_0_n_n_0_1_1_wf : GatherDims.WF S100000 S6400000x1 S6400000 [] [0] [] [0] [] 1 ![1]
  gather_S16x16_S6400000x2_S6400000_n_01_n_n_01_1_11_wf : GatherDims.WF S16x16 S6400000x2 S6400000 [] [0, 1] [] [0, 1] [] 1 ![1, 1]
  scatter_S100000x1_S6400000x1_S6400000x1_1_0_0_1_wf : ScatterDims.WF S100000x1 S6400000x1 S6400000x1 [1] [0] [0] 1

variable [Facts₀]

def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf
def gather_S16x16_S6400000x2_S6400000_n_01_n_n_01_1_11 : GatherDims S16x16 S6400000x2 S6400000 where
  offsetDims := []
  collapsedSliceDims := [0, 1]
  operandBatchingDims := []
  startIndicesBatchingDims := []
  startIndexMap := [0, 1]
  indexVectorDim := 1
  sliceSizes := ![1, 1]
  wf := gather_S16x16_S6400000x2_S6400000_n_01_n_n_01_1_11_wf
def scatter_S100000x1_S6400000x1_S6400000x1_1_0_0_1 : ScatterDims S100000x1 S6400000x1 S6400000x1 where
  updateWindowDims := [1]
  insertedWindowDims := [0]
  scatterDimsToOperandDims := [0]
  indexVectorDim := 1
  wf := scatter_S100000x1_S6400000x1_S6400000x1_1_0_0_1_wf

class Facts : Prop extends Facts₀ where

variable [Facts]
-- ==== Proof.LibScatterGather.lean ====
/-
  ROW GATHERS AND ROW SCATTER-ADDS READ AT AN INDEX, with the words, literals and sums around them.

  A gather of whole rows of an [N, C] table at M start indices (a column [M, 1] of words) returns, at (e, h), the table's
  entry (row, h), where row is the e-th start index read as a signed integer and clamped into [0, N - 1].
  A scatter-add of M rows (an [M, C] array) into an [N, C] operand at M start indices adds, at (n, h), the entries (e, h)
  of every update row e whose start index, read as a signed integer and NOT clamped, is n; an update that lands outside
  the operand is dropped.  The vector form scatters M scalars into an [N] operand.
  Around them: a 32-bit word below 2^31 reads the same signed and unsigned; a product-plus-sum of words that stays
  below 2^32 does not wrap; the pair (a, b) with b < 3 is recovered from 3a + b; the float words of one and zero and
  the conversion of a one-bit word; and a sum of terms masked by an indicator is the sum over the smaller set.
-/
import Idealize.ShloMosaic.PureOps.Ideal
import Idealize.ShloMosaic.PureOps.Ideal.Laws
import Idealize.ShloMosaic.Lib.ValueIdx
import Idealize.ShloMosaic.Lib.ValueIdxRank1
import Idealize.ShloMosaic.Lib.IdealHost
import Idealize.ShloMosaic.Lib.Pipeline.Value

noncomputable section

open scoped BigOperators

namespace Cert.LibSG

open Idealize.ShloMosaic Idealize.ShloMosaic.ValueIdx

/-! ## (a) A gather of rows, read at an index -/

/-- The row gather's dimension numbers for a table [N, C], start indices [M, 1] and a result [M, C]. -/
abbrev rowGather (N C M : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The row gather with those dimension numbers, read at (e, h). -/
theorem rowGather_apply {α : Type} {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (h : Fin C) :
    Host.gather (rowGather N C M wf) x idx (ix2 e h)
      = x (ix2 ⟨min (idx (ix2 e (0 : Fin 1))).toInt.toNat (N - 1), by omega⟩ h) := by
  unfold Host.gather
  congr 1
  funext a
  refine Fin.ext ?_
  match a with
  | ⟨0, _⟩ =>
    show (rowGather N C M wf).start (ix2 e h) idx 0 + (rowGather N C M wf).batchCoord (ix2 e h) 0
      + (rowGather N C M wf).offCoord (ix2 e h) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ (rowGather N C M wf).startIndexMap from List.mem_singleton.mpr rfl)]
    have hsi : (rowGather N C M wf).siIdx (ix2 e h) ⟨List.idxOf (0 : Fin 2) (rowGather N C M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N C M wf).start (ix2 e h) idx 1 + (rowGather N C M wf).batchCoord (ix2 e h) 1
      + (rowGather N C M wf).offCoord (ix2 e h) 1 = h.val
    have h1 : (1 : Fin 2) ∉ (rowGather N C M wf).startIndexMap := fun hm =>
      absurd (congrArg Fin.val (List.mem_singleton.mp hm)) Nat.one_ne_zero
    have h2 : (1 : Fin 2) ∈ (rowGather N C M wf).sKept :=
      (GatherDims.mem_sKept _ _).mpr ⟨fun hm => absurd (congrArg Fin.val (List.mem_singleton.mp hm)) Nat.one_ne_zero,
        List.not_mem_nil⟩
    rw [GatherDims.batchCoord_eq_zero _ _ _ List.not_mem_nil]
    unfold GatherDims.start GatherDims.offCoord
    rw [dif_neg h1, dif_pos h2]
    simp only [Nat.add_zero, Nat.zero_add]
    rfl

/-- THE ROW GATHER AT (e, h): the table's entry (row, h), the row being the e-th start index read signed and clamped
    into [0, N - 1]. The record's lists are hypotheses, so that a program's record is an instance by seven rfl's. -/
theorem gather_row_apply {α : Type} {N C M w : Nat} (hN : 0 < N)
    (d : GatherDims ⟨2, ![N, C]⟩ ⟨2, ![M, 1]⟩ ⟨2, ![M, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![M, 1]⟩ w) (e : Fin M) (h : Fin C) :
    Host.gather d x idx (ix2 e h)
      = x (ix2 ⟨min (idx (ix2 e (0 : Fin 1))).toInt.toNat (N - 1), by omega⟩ h) := by
  obtain ⟨od, cd, ob, sb, sm, iv, ss, wf⟩ := d
  simp only at hod hcd hob hsb hsm hiv hss
  subst hod hcd hob hsb hsm hiv hss
  exact rowGather_apply hN wf x idx e h

/-- The same when the e-th start index, a 32-bit word, is below N (and N ≤ 2^31): the row is the word's value. -/
theorem gather_row_apply_of_lt {α : Type} {N C M : Nat} (hN : N ≤ 2 ^ 31)
    (d : GatherDims ⟨2, ![N, C]⟩ ⟨2, ![M, 1]⟩ ⟨2, ![M, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![M, 1]⟩ 32) (e : Fin M) (h : Fin C)
    (hlt : (idx (ix2 e (0 : Fin 1))).toNat < N) :
    Host.gather d x idx (ix2 e h) = x (ix2 ⟨(idx (ix2 e (0 : Fin 1))).toNat, hlt⟩ h) := by
  have hpos : 0 < N := by omega
  have key : min (idx (ix2 e (0 : Fin 1))).toInt.toNat (N - 1) = (idx (ix2 e (0 : Fin 1))).toNat := by
    rw [BitVec.toInt_eq_toNat_of_lt (by omega), Int.toNat_natCast]
    omega
  have hf : (⟨min (idx (ix2 e (0 : Fin 1))).toInt.toNat (N - 1), by omega⟩ : Fin N)
      = ⟨(idx (ix2 e (0 : Fin 1))).toNat, hlt⟩ := Fin.ext key
  rw [gather_row_apply hpos d hod hcd hob hsb hsm hiv hss, hf]

/-! ## (b) A scatter-add of rows, read at an index -/

/-- An update lands at operand index i exactly when, on every axis, its start plus its window coordinate is i's
    coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro H
    split at H
    · rename_i hall
      have hf := Option.some.inj H
      intro a
      have ha : (d.start j idx a + (d.window j a : Int)).toNat = (i a).val := by
        rw [← hf]
      have := (hall a).1
      omega
    · exact absurd H (by simp)
  · intro H
    have hall : ∀ a, 0 ≤ d.start j idx a + (d.window j a : Int) ∧ d.start j idx a + (d.window j a : Int) < s.size a :=
      fun a => by rw [H a]; exact ⟨Int.natCast_nonneg _, by exact_mod_cast (i a).isLt⟩
    rw [dif_pos hall]
    congr 1
    funext a
    refine Fin.ext ?_
    show (d.start j idx a + (d.window j a : Int)).toNat = (i a).val
    rw [H a]; exact Int.toNat_natCast _

/-- The row scatter's dimension numbers for an operand [N, C], start indices [M, 1] and updates [M, C]. -/
abbrev rowScatter (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- Update entry (e, c) of a row scatter lands at (n, h) exactly when row e's start index, read signed, is n and c = h. -/
theorem rowScatter_lands {N C M w : Nat} (wf : ScatterDims.WF ⟨2, ![N, C]⟩ ⟨2, ![M, 1]⟩ ⟨2, ![M, C]⟩ [1] [0] [0] 1)
    (idx : IVec ⟨2, ![M, 1]⟩ w) (e : Fin M) (c : Fin C) (n : Fin N) (h : Fin C) :
    (rowScatter N C M wf).resultIdx? (ix2 e c) idx = some (ix2 n h)
      ↔ (idx (ix2 e (0 : Fin 1))).toInt = (n.val : Int) ∧ c = h := by
  rw [resultIdx?_eq_some_iff]
  have h10 : (1 : Fin 2) ∉ [(0 : Fin 2)] := fun hm => absurd (congrArg Fin.val (List.mem_singleton.mp hm)) Nat.one_ne_zero
  have hs0 : (rowScatter N C M wf).start (ix2 e c) idx 0 = (idx (ix2 e (0 : Fin 1))).toInt := by
    unfold ScatterDims.start
    rw [dif_pos (show (0 : Fin 2) ∈ (rowScatter N C M wf).scatterDimsToOperandDims from List.mem_singleton.mpr rfl)]
    have hsi : (rowScatter N C M wf).siIdx (ix2 e c) ⟨List.idxOf (0 : Fin 2) (rowScatter N C M wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowScatter N C M wf).start (ix2 e c) idx 1 = 0 := by
    unfold ScatterDims.start
    rw [dif_neg (show (1 : Fin 2) ∉ (rowScatter N C M wf).scatterDimsToOperandDims from h10)]
  have hw0 : (rowScatter N C M wf).window (ix2 e c) 0 = 0 := by
    unfold ScatterDims.window
    rw [dif_neg]
    intro hm
    have := (List.mem_filter.mp hm).2
    simp at this
  have hw1 : (rowScatter N C M wf).window (ix2 e c) 1 = c.val := by
    unfold ScatterDims.window
    have hm : (1 : Fin 2) ∈ (rowScatter N C M wf).sKept := by
      refine List.mem_filter.mpr ⟨List.mem_finRange _, ?_⟩
      simp
    rw [dif_pos hm]
    rfl
  constructor
  · intro H
    have H0 : (rowScatter N C M wf).start (ix2 e c) idx 0 + ((rowScatter N C M wf).window (ix2 e c) 0 : Int)
        = (n.val : Int) := H 0
    have H1 : (rowScatter N C M wf).start (ix2 e c) idx 1 + ((rowScatter N C M wf).window (ix2 e c) 1 : Int)
        = (h.val : Int) := H 1
    rw [hs0, hw0] at H0
    rw [hs1, hw1] at H1
    refine ⟨by simpa using H0, Fin.ext ?_⟩
    have : ((c.val : Int)) = (h.val : Int) := by simpa using H1
    exact_mod_cast this
  · rintro ⟨H0, rfl⟩ a
    match a with
    | ⟨0, _⟩ =>
      show (rowScatter N C M wf).start (ix2 e c) idx 0 + ((rowScatter N C M wf).window (ix2 e c) 0 : Int) = (n.val : Int)
      rw [hs0, hw0, H0]; simp
    | ⟨1, _⟩ =>
      show (rowScatter N C M wf).start (ix2 e c) idx 1 + ((rowScatter N C M wf).window (ix2 e c) 1 : Int) = (c.val : Int)
      rw [hs1, hw1]; simp

/-- The row scatter-add with those dimension numbers, read at (n, h). -/
theorem rowScatter_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (n : Fin N) (h : Fin C) :
    Ideal.hostScatterAdd (rowScatter N C M wf) x idx upd (ix2 n h)
      = x (ix2 n h) + ∑ e ∈ Finset.univ.filter (fun e : Fin M => (idx (ix2 e (0 : Fin 1))).toInt = (n.val : Int)),
          upd (ix2 e h) := by
  unfold Ideal.hostScatterAdd
  congr 1
  rw [Finset.sum_filter, sum_idx2, Finset.sum_filter]
  refine Finset.sum_congr rfl fun e _ => ?_
  simp only [rowScatter_lands]
  by_cases hq : (idx (ix2 e (0 : Fin 1))).toInt = (n.val : Int)
  · simp only [hq, true_and, if_true]
    rw [Finset.sum_ite_eq' Finset.univ h (fun c => upd (ix2 e c)), if_pos (Finset.mem_univ _)]
  · simp only [hq, false_and, if_false]
    exact Finset.sum_const_zero

/-- THE ROW SCATTER-ADD AT (n, h): the operand's entry plus the entries (e, h) of the update rows e whose start index,
    read signed and not clamped, is n. -/
theorem hostScatterAdd_row_apply {N C M w : Nat}
    (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hiv : d.indexVectorDim = 1)
    (x : (⟨2, ![N, C]⟩ : Shape).Idx → EReal) (idx : IVec ⟨2, ![M, 1]⟩ w) (upd : (⟨2, ![M, C]⟩ : Shape).Idx → EReal)
    (n : Fin N) (h : Fin C) :
    Ideal.hostScatterAdd d x idx upd (ix2 n h)
      = x (ix2 n h) + ∑ e ∈ Finset.univ.filter (fun e : Fin M => (idx (ix2 e (0 : Fin 1))).toInt = (n.val : Int)),
          upd (ix2 e h) := by
  obtain ⟨uw, iw, sd, iv, wf⟩ := d
  simp only at huw hiw hsd hiv
  subst huw hiw hsd hiv
  exact rowScatter_apply wf x idx upd n h

/-- The same for the program's operation at the exact instance (whatever the float format). -/
theorem scatterAdd_row_apply {φ : FTy} {N C M w : Nat}
    (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hiv : d.indexVectorDim = 1)
    (x : FVec Ideal ⟨2, ![N, C]⟩ φ) (idx : IVec ⟨2, ![M, 1]⟩ w) (upd : FVec Ideal ⟨2, ![M, C]⟩ φ)
    (n : Fin N) (h : Fin C) :
    Host.scatterAdd d x idx upd (ix2 n h)
      = x (ix2 n h) + ∑ e ∈ Finset.univ.filter (fun e : Fin M => (idx (ix2 e (0 : Fin 1))).toInt = (n.val : Int)),
          upd (ix2 e h) :=
  hostScatterAdd_row_apply d huw hiw hsd hiv x idx upd n h

/-! ## (c) A scatter-add of scalars into a vector, read at an index -/

/-- A sum over a rank-1 index set is the sum over its coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- The scalar scatter's dimension numbers for an operand [N], start indices [M, 1] and updates [M]. -/
abbrev vecScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update e of a scalar scatter lands at n exactly when its start index, read signed, is n. -/
theorem vecScatter_lands {N M w : Nat} (wf : ScatterDims.WF ⟨1, ![N]⟩ ⟨2, ![M, 1]⟩ ⟨1, ![M]⟩ [] [0] [0] 1)
    (idx : IVec ⟨2, ![M, 1]⟩ w) (e : Fin M) (n : Fin N) :
    (vecScatter N M wf).resultIdx? (ix1 e) idx = some (ix1 n) ↔ (idx (ix2 e (0 : Fin 1))).toInt = (n.val : Int) := by
  rw [resultIdx?_eq_some_iff]
  have hs0 : (vecScatter N M wf).start (ix1 e) idx 0 = (idx (ix2 e (0 : Fin 1))).toInt := by
    unfold ScatterDims.start
    rw [dif_pos (show (0 : Fin 1) ∈ (vecScatter N M wf).scatterDimsToOperandDims from List.mem_singleton.mpr rfl)]
    have hsi : (vecScatter N M wf).siIdx (ix1 e) ⟨List.idxOf (0 : Fin 1) (vecScatter N M wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (vecScatter N M wf).window (ix1 e) 0 = 0 := by
    unfold ScatterDims.window
    rw [dif_neg]
    intro hm
    have := (List.mem_filter.mp hm).2
    simp at this
  constructor
  · intro H
    have H0 : (vecScatter N M wf).start (ix1 e) idx 0 + ((vecScatter N M wf).window (ix1 e) 0 : Int)
        = (n.val : Int) := H 0
    rw [hs0, hw0] at H0
    simpa using H0
  · intro H a
    match a with
    | ⟨0, _⟩ =>
      show (vecScatter N M wf).start (ix1 e) idx 0 + ((vecScatter N M wf).window (ix1 e) 0 : Int) = (n.val : Int)
      rw [hs0, hw0, H]; simp

/-- The scalar scatter-add with those dimension numbers, read at n. -/
theorem vecScatter_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (n : Fin N) :
    Ideal.hostScatterAdd (vecScatter N M wf) x idx upd (ix1 n)
      = x (ix1 n) + ∑ e ∈ Finset.univ.filter (fun e : Fin M => (idx (ix2 e (0 : Fin 1))).toInt = (n.val : Int)),
          upd (ix1 e) := by
  unfold Ideal.hostScatterAdd
  congr 1
  rw [Finset.sum_filter, sum_idx1, Finset.sum_filter]
  refine Finset.sum_congr rfl fun e _ => ?_
  simp only [vecScatter_lands]

/-- THE SCALAR SCATTER-ADD AT n: the operand's entry plus the updates e whose start index, read signed and not
    clamped, is n. -/
theorem hostScatterAdd_vec_apply {N M w : Nat}
    (d : ScatterDims ⟨1, ![N]⟩ ⟨2, ![M, 1]⟩ ⟨1, ![M]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![M, 1]⟩ w) (upd : (⟨1, ![M]⟩ : Shape).Idx → EReal)
    (n : Fin N) :
    Ideal.hostScatterAdd d x idx upd (ix1 n)
      = x (ix1 n) + ∑ e ∈ Finset.univ.filter (fun e : Fin M => (idx (ix2 e (0 : Fin 1))).toInt = (n.val : Int)),
          upd (ix1 e) := by
  obtain ⟨uw, iw, sd, iv, wf⟩ := d
  simp only at huw hiw hsd hiv
  subst huw hiw hsd hiv
  exact vecScatter_apply wf x idx upd n

/-- The same for the program's operation at the exact instance. -/
theorem scatterAdd_vec_apply {φ : FTy} {N M w : Nat}
    (d : ScatterDims ⟨1, ![N]⟩ ⟨2, ![M, 1]⟩ ⟨1, ![M]⟩)
    (huw : d.updateWindowDims = []) (hiw : d.insertedWindowDims = [0]) (hsd : d.scatterDimsToOperandDims = [0])
    (hiv : d.indexVectorDim = 1)
    (x : FVec Ideal ⟨1, ![N]⟩ φ) (idx : IVec ⟨2, ![M, 1]⟩ w) (upd : FVec Ideal ⟨1, ![M]⟩ φ)
    (n : Fin N) :
    Host.scatterAdd d x idx upd (ix1 n)
      = x (ix1 n) + ∑ e ∈ Finset.univ.filter (fun e : Fin M => (idx (ix2 e (0 : Fin 1))).toInt = (n.val : Int)),
          upd (ix1 e) :=
  hostScatterAdd_vec_apply d huw hiw hsd hiv x idx upd n

/-- When every start index is below 2^31, "read signed it is n" is "its value is n". -/
theorem filter_toInt_eq {M : Nat} (I : Fin M → BitVec 32) (hI : ∀ e, (I e).toNat < 2 ^ 31) (n : Nat) :
    Finset.univ.filter (fun e : Fin M => (I e).toInt = (n : Int))
      = Finset.univ.filter (fun e : Fin M => (I e).toNat = n) := by
  refine Finset.filter_congr fun e _ => ?_
  rw [BitVec.toInt_eq_toNat_of_lt (by have := hI e; omega)]
  exact Int.natCast_inj

/-! ## (d) Words -/

/-- A 32-bit word below 2^31 reads the same signed and unsigned. -/
theorem toInt_eq_toNat (w : BitVec 32) (h : w.toNat < 2 ^ 31) : w.toInt = (w.toNat : Int) :=
  BitVec.toInt_eq_toNat_of_lt (by omega)

/-- The word of a natural below 2^32 has that value. -/
theorem toNat_ofNat_lt (k : Nat) (h : k < 2 ^ 32) : (BitVec.ofNat 32 k).toNat = k := by
  rw [BitVec.toNat_ofNat]; exact Nat.mod_eq_of_lt h

/-- A product plus a sum of words that stays below 2^32 does not wrap. -/
theorem toNat_mul_add (a c b : BitVec 32) (h : a.toNat * c.toNat + b.toNat < 2 ^ 32) :
    (a * c + b).toNat = a.toNat * c.toNat + b.toNat := by
  have h1 : a.toNat * c.toNat < 2 ^ 32 := Nat.lt_of_le_of_lt (Nat.le_add_right _ _) h
  rw [BitVec.toNat_add, BitVec.toNat_mul, Nat.mod_eq_of_lt h1, Nat.mod_eq_of_lt h]

/-- The fused index 3a + b as a word: no wrap while 3a + b < 2^32. -/
theorem toNat_mul3_add (a b : BitVec 32) (h : 3 * a.toNat + b.toNat < 2 ^ 32) :
    (a * 3#32 + b).toNat = 3 * a.toNat + b.toNat := by
  have h3 : (3#32 : BitVec 32).toNat = 3 := by decide
  rw [toNat_mul_add a 3#32 b (by rw [h3]; omega), h3]; omega

/-- The same through the integer operations' names. -/
theorem toNat_muli3_addi (a b : BitVec 32) (h : 3 * a.toNat + b.toNat < 2 ^ 32) :
    (IntOp.addi (IntOp.muli a 3#32) b).toNat = 3 * a.toNat + b.toNat :=
  toNat_mul3_add a b h

/-- The pair (a, b) with b < 3 is recovered from 3a + b. -/
theorem fused3_inj {a a' b b' : Nat} (hb : b < 3) (hb' : b' < 3) : 3 * a + b = 3 * a' + b' ↔ a = a' ∧ b = b' := by
  omega

/-- Its quotient by 3 is a. -/
theorem fused3_div {a b : Nat} (hb : b < 3) : (3 * a + b) / 3 = a := by
  omega

/-- Its remainder by 3 is b. -/
theorem fused3_mod {a b : Nat} (hb : b < 3) : (3 * a + b) % 3 = b := by
  omega

/-! ## (e) Literals and one-bit conversions at the exact instance -/

/-- The f32 word 0x3F800000 is one. -/
theorem ofBits_one_f32 : Ideal.ofBits .f32 0x3F800000#32 = (1 : EReal) := Ideal.ofBits_one_f32

/-- The f32 word 0 is zero. -/
theorem ofBits_zero_f32 : Ideal.ofBits .f32 0#32 = (0 : EReal) := Ideal.ofBits_zero_f32

/-- A one-bit word is 0 or 1. -/
theorem bit_cases (b : BitVec 1) : b = 0#1 ∨ b = 1#1 := by
  revert b; decide

/-- A one-bit word converted unsigned is one when the bit is set and zero when it is not. -/
theorem uitofp_bit {φ : FTy} (b : BitVec 1) : (FloatOps.uitofp φ b : Ideal φ) = if b = 1#1 then (1 : EReal) else 0 := by
  show (((b.toNat : ℝ)) : EReal) = _
  rcases bit_cases b with rfl | rfl
  · rw [if_neg (by decide)]; simp
  · rw [if_pos rfl]; simp

/-- The set bit converts to one. -/
theorem uitofp_bit_one {φ : FTy} : (FloatOps.uitofp φ (1#1 : BitVec 1) : Ideal φ) = (1 : EReal) := by
  rw [uitofp_bit, if_pos rfl]

/-- The clear bit converts to zero. -/
theorem uitofp_bit_zero {φ : FTy} : (FloatOps.uitofp φ (0#1 : BitVec 1) : Ideal φ) = (0 : EReal) := by
  rw [uitofp_bit, if_neg (by decide)]

/-- A one-bit word widened to 32 bits and converted signed: one when the bit is set, zero when it is not. -/
theorem sitofp_setWidth_bit {φ : FTy} (b : BitVec 1) :
    (FloatOps.sitofp φ (b.setWidth 32) : Ideal φ) = if b = 1#1 then (1 : EReal) else 0 := by
  show ((((b.setWidth 32).toInt : ℝ)) : EReal) = _
  rcases bit_cases b with rfl | rfl
  · rw [if_neg (by decide), show ((0#1 : BitVec 1).setWidth 32).toInt = 0 by decide]; simp
  · rw [if_pos rfl, show ((1#1 : BitVec 1).setWidth 32).toInt = 1 by decide]; simp

/-! ## (f) Sums -/

/-- A filtered sum is the sum of the terms switched by the condition. -/
theorem sum_filter_eq_ite {ι : Type*} (S : Finset ι) (p : ι → Prop) [DecidablePred p] (f : ι → EReal) :
    ∑ e ∈ S.filter p, f e = ∑ e ∈ S, (if p e then f e else 0) :=
  Finset.sum_filter p f

/-- A term times an indicator is the term or zero (no finiteness needed: x · 1 = x and x · 0 = 0 at ±∞ too). -/
theorem mul_ite_one_zero (x : EReal) (c : Prop) [Decidable c] : x * (if c then (1 : EReal) else 0) = if c then x else 0 := by
  split_ifs
  · exact mul_one x
  · exact mul_zero x

/-- The same with the indicator on the left. -/
theorem ite_one_zero_mul (x : EReal) (c : Prop) [Decidable c] : (if c then (1 : EReal) else 0) * x = if c then x else 0 := by
  split_ifs
  · exact one_mul x
  · exact zero_mul x

/-- A filtered sum of terms each masked by an indicator is the sum over the doubly filtered set. -/
theorem sum_filter_mul_ite {ι : Type*} (S : Finset ι) (p q : ι → Prop) [DecidablePred p] [DecidablePred q] (f : ι → EReal) :
    ∑ e ∈ S.filter p, f e * (if q e then (1 : EReal) else 0) = ∑ e ∈ S.filter (fun e => p e ∧ q e), f e := by
  rw [← Finset.filter_filter, Finset.sum_filter q f]
  exact Finset.sum_congr rfl fun e _ => mul_ite_one_zero (f e) (q e)

/-- The same with the indicator on the left. -/
theorem sum_filter_ite_mul {ι : Type*} (S : Finset ι) (p q : ι → Prop) [DecidablePred p] [DecidablePred q] (f : ι → EReal) :
    ∑ e ∈ S.filter p, (if q e then (1 : EReal) else 0) * f e = ∑ e ∈ S.filter (fun e => p e ∧ q e), f e := by
  rw [← Finset.filter_filter, Finset.sum_filter q f]
  exact Finset.sum_congr rfl fun e _ => ite_one_zero_mul (f e) (q e)

/-- The masked scatter's form: over the edges into n, a term masked by "the relation is r" sums over the edges of
    relation r into n. -/
theorem sum_filter_eq_mul_ite_eq {ι κ ρ : Type*} [Fintype ι] [DecidableEq κ] [DecidableEq ρ] (D : ι → κ) (R : ι → ρ)
    (n : κ) (r : ρ) (f : ι → EReal) :
    ∑ e ∈ Finset.univ.filter (fun e => D e = n), f e * (if R e = r then (1 : EReal) else 0)
      = ∑ e ∈ Finset.univ.filter (fun e => D e = n ∧ R e = r), f e :=
  sum_filter_mul_ite Finset.univ (fun e => D e = n) (fun e => R e = r) f

/-- A filtered sum of indicators counts the doubly filtered set (each member weighing one). -/
theorem sum_filter_ite_one {ι : Type*} (S : Finset ι) (p q : ι → Prop) [DecidablePred p] [DecidablePred q] :
    ∑ e ∈ S.filter p, (if q e then (1 : EReal) else 0) = ∑ _e ∈ S.filter (fun e => p e ∧ q e), (1 : EReal) := by
  rw [← Finset.filter_filter, Finset.sum_filter q (fun _ => (1 : EReal))]

end Cert.LibSG

end
-- ==== Proof.ScaleSum.lean ====
/-
  The species-pair scale as a double sum over the sixteen labels.

  For two 32-bit words `cw`, `nw` (the centre's and the neighbour's label) and a 16 × 16 table, the kernel forms
    Σ_a [cw = a] · Σ_b table(a, b) · [nw = b]
  with `[·]` the indicator, 1 or 0.  When both words are labels, below 16, every term but (cw, nw) vanishes and the
  sum is table(cw, nw); no finiteness is needed, since x · 0 = 0 and x · 1 = x for every extended real x.
  Also: a compare-equal bit widened to 32 bits and converted to a float is that indicator.
-/
import Idealize.ShloMosaic.PureOps.Ideal
import Idealize.ShloMosaic.Lib.ValueIdx
import Idealize.ShloMosaic.Lib.StableHlo.Predicate
import proofs.«427242_j64080912056845_1_alg».proof.Proof.LibScatterGather

noncomputable section

open scoped BigOperators

namespace Cert.ScaleSum

open Idealize.ShloMosaic Idealize.ShloMosaic.ValueIdx

/-- The indicator of `w = a` as an extended real. -/
def hot (w a : BitVec 32) : EReal := if w = a then 1 else 0

/-- The label `k` as a 32-bit word. -/
abbrev lab (k : Fin 16) : BitVec 32 := BitVec.ofNat 32 k.val

/-- Σ_a [cw = a] · Σ_b table(a, b) · [nw = b]. -/
def scaleSum (tbl : (⟨2, ![16, 16]⟩ : Shape).Idx → EReal) (cw nw : BitVec 32) : EReal :=
  ∑ a : Fin 16, hot cw (lab a) * ∑ b : Fin 16, tbl (ix2 a b) * hot nw (lab b)

theorem lab_toNat (k : Fin 16) : (lab k).toNat = k.val := by
  have := k.isLt
  simp only [lab, BitVec.toNat_ofNat]
  omega

theorem hot_lab_self (w : BitVec 32) (h : w.toNat < 16) : hot w (lab ⟨w.toNat, h⟩) = 1 := by
  unfold hot
  rw [if_pos]
  apply BitVec.eq_of_toNat_eq
  rw [lab_toNat]

theorem hot_lab_ne (w : BitVec 32) (h : w.toNat < 16) (k : Fin 16) (hk : k ≠ ⟨w.toNat, h⟩) : hot w (lab k) = 0 := by
  unfold hot
  rw [if_neg]
  intro e
  apply hk
  apply Fin.ext
  have := congrArg BitVec.toNat e
  rw [lab_toNat] at this
  exact this.symm

/-- Σ_b f(b) · [w = b] picks f at the label `w`. -/
theorem sum_mul_hot (f : Fin 16 → EReal) (w : BitVec 32) (h : w.toNat < 16) :
    ∑ b : Fin 16, f b * hot w (lab b) = f ⟨w.toNat, h⟩ := by
  rw [Finset.sum_eq_single (⟨w.toNat, h⟩ : Fin 16)]
  · rw [hot_lab_self, mul_one]
  · intro b _ hb
    rw [hot_lab_ne w h b hb, mul_zero]
  · intro hn; exact absurd (Finset.mem_univ _) hn

/-- Σ_a [w = a] · f(a) picks f at the label `w`. -/
theorem sum_hot_mul (f : Fin 16 → EReal) (w : BitVec 32) (h : w.toNat < 16) :
    ∑ a : Fin 16, hot w (lab a) * f a = f ⟨w.toNat, h⟩ := by
  rw [Finset.sum_eq_single (⟨w.toNat, h⟩ : Fin 16)]
  · rw [hot_lab_self, one_mul]
  · intro b _ hb
    rw [hot_lab_ne w h b hb, zero_mul]
  · intro hn; exact absurd (Finset.mem_univ _) hn

/-- With both words labels, the double sum is the table's entry. -/
theorem scaleSum_eq (tbl : (⟨2, ![16, 16]⟩ : Shape).Idx → EReal) (cw nw : BitVec 32) (hc : cw.toNat < 16) (hn : nw.toNat < 16) :
    scaleSum tbl cw nw = tbl (ix2 ⟨cw.toNat, hc⟩ ⟨nw.toNat, hn⟩) := by
  unfold scaleSum
  rw [sum_hot_mul (fun a => ∑ b : Fin 16, tbl (ix2 a b) * hot nw (lab b)) cw hc]
  exact sum_mul_hot (fun b => tbl (ix2 ⟨cw.toNat, hc⟩ b)) nw hn

/-- A compare-equal bit, widened to 32 bits, converted signed to f32 and narrowed to bf16, is at the exact
    instance the indicator of the equality. -/
theorem onehot_apply {s : Shape} (v : IVec s 32) (a : BitVec 32) (h1 : 1 < 32) (hb : FTy.bits .bf16 < FTy.bits .f32) (j : s.Idx) :
    (truncf .bf16 (sitofp (F := Ideal) .f32 (extui 32 (cmpi .eq v (broadcast s a)) h1)) hb) j = hot (v j) a := by
  show (FloatOps.sitofp .f32 ((IntOp.cmpi .eq (v j) a).setWidth 32) : Ideal .f32) = _
  rw [Cert.LibSG.sitofp_setWidth_bit]
  unfold hot
  by_cases h : v j = a
  · rw [if_pos h, if_pos (StableHlo.Predicate.cmpi_eq_iff.2 h)]
  · rw [if_neg h, if_neg (fun e => h (StableHlo.Predicate.cmpi_eq_iff.1 e))]

end Cert.ScaleSum

end
-- ==== Proof.PayloadAt.lean ====
/-
  What the kernel body stores, read at one entry of its 1000 × 128 block.

  The body flattens its three blocks to vectors of 128000 entries (row-major: entry (r, l) sits at 128 r + l), stacks
  the sixteen indicator rows [cs = a] of the centre labels and the sixteen rows [ns = b] of the neighbour labels,
  multiplies the 16 × 16 table into the neighbour stack, weights the product by the centre stack, sums over the
  sixteen rows, and multiplies by the edge energies. At entry (r, l) that is
    eng(r, l) · Σ_a [cs(r, l) = a] · Σ_b table(a, b) · [ns(r, l) = b].
-/
import proofs.«427242_j64080912056845_1_alg».proof.Proof.Gen.KernelIdeal.Frame
import proofs.«427242_j64080912056845_1_alg».proof.Proof.ScaleSum
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.PayloadAt

open Idealize.ShloMosaic Idealize.ShloMosaic.ValueIdx Idealize.ShloMosaic.Pipeline
open Cert.KernelIdeal Cert.KernelIdeal.Gen Cert.ScaleSum

/-- The row-major position of entry (r, l) of a 1000 × 128 block. -/
abbrev flat (r : Fin 1000) (l : Fin 128) : Fin 128000 := ⟨r.val * 128 + l.val, by have := r.isLt; have := l.isLt; omega⟩

/-- A block flattened reads, at position 128 r + l, the block at (r, l). -/
theorem flatten_apply {α : Type} (x : S1000x128.Idx → α) (r : Fin 1000) (l : Fin 128) :
    shapeCast S128000 (shapeCast S1000x128 x shapeCasts_S1000x128_S1000x128) shapeCasts_S1000x128_S128000 (ix1 (flat r l)) = x (ix2 r l) := by
  rw [shapeCast_self]
  exact shapeCast_apply x _ _ _ (by rw [Shape.rowMajor_val_two, Shape.rowMajor_val_one]; rfl)

/-- A vector of 128000 entries laid out as 1000 × 128 reads, at (r, l), the vector at 128 r + l. -/
theorem unflatten_apply {α : Type} (v : S128000.Idx → α) (r : Fin 1000) (l : Fin 128) :
    shapeCast S1000x128 v shapeCasts_S128000_S1000x128 (ix2 r l) = v (ix1 (flat r l)) :=
  shapeCast_apply v _ _ _ (by rw [Shape.rowMajor_val_two, Shape.rowMajor_val_one]; rfl)

/-! ## The indicator stacks -/

/-- Row `a` of the stack: the indicator of "the label is a", as a 1 × 128000 row. -/
def hotRow (v : IVec S128000 32) (a : Fin 16) : FVec Ideal S1x128000 .bf16 :=
  shapeCast S1x128000 (truncf .bf16 (sitofp (F := Ideal) .f32 (extui 32 (cmpi .eq v (broadcast S128000 (lab a))) natLt_1_32)) bitsLt_bf16_f32)
    shapeCasts_S128000_S1x128000

theorem hotRow_apply (v : IVec S128000 32) (a : Fin 16) (u : Fin 1) (e : Fin 128000) :
    hotRow v a (ix2 u e) = hot (v (ix1 e)) (lab a) := by
  unfold hotRow
  rw [shapeCast_a_1a_apply]
  exact onehot_apply v (lab a) _ _ (ix1 e)

/-- The sixteen rows stacked. -/
def hotStack (v : IVec S128000 32) : FVec Ideal S16x128000 .bf16 :=
  concatenate S16x128000 0 (List.ofFn fun a : Fin 16 => (⟨S1x128000, hotRow v a⟩ : (s : Shape) × (s.Idx → Ideal .bf16)))
    concatenates_S1x128000_S1x128000_S1x128000_S1x128000_S1x128000_S1x128000_S1x128000_S1x128000_S1x128000_S1x128000_S1x128000_S1x128000_S1x128000_S1x128000_S1x128000_S1x128000_S16x128000_d0

/-- Entry (a, e) of the stack is the indicator of "label e is a". -/
theorem hotStack_apply (v : IVec S128000 32) (a : Fin 16) (e : Fin 128000) :
    hotStack v (ix2 a e) = hot (v (ix1 e)) (lab a) := by
  unfold hotStack
  exact (concatenate_ofFn_unit_apply (t := S16x128000) (s₁ := S1x128000) (0 : Fin 2) (fun a : Fin 16 => hotRow v a)
    concatenates_S1x128000_S1x128000_S1x128000_S1x128000_S1x128000_S1x128000_S1x128000_S1x128000_S1x128000_S1x128000_S1x128000_S1x128000_S1x128000_S1x128000_S1x128000_S1x128000_S16x128000_d0
    rfl rfl (ix2 a e) a rfl (ix2 (0 : Fin 1) e)
    (fun b hb => by
      match b with
      | ⟨0, _⟩ => exact absurd rfl hb
      | ⟨1, _⟩ => rfl)).trans (hotRow_apply v a 0 e)

/-- The body's stack of the centre labels is that stack. -/
theorem csStack_eq (v0 : Vec Ideal S1000x128 .i32) :
    k0_pay30 (F := Ideal) (k0_pay14 (F := Ideal) (k0_pay3 v0)) (k0_pay15 (F := Ideal) (k0_pay3 v0)) (k0_pay16 (F := Ideal) (k0_pay3 v0)) (k0_pay17 (F := Ideal) (k0_pay3 v0)) (k0_pay18 (F := Ideal) (k0_pay3 v0)) (k0_pay19 (F := Ideal) (k0_pay3 v0)) (k0_pay20 (F := Ideal) (k0_pay3 v0)) (k0_pay21 (F := Ideal) (k0_pay3 v0)) (k0_pay22 (k0_pay6 v0)) (k0_pay23 (k0_pay7 v0)) (k0_pay24 (k0_pay8 v0)) (k0_pay25 (k0_pay9 v0)) (k0_pay26 (k0_pay10 v0)) (k0_pay27 (k0_pay11 v0)) (k0_pay28 (k0_pay12 v0)) (k0_pay29 (F := Ideal) (k0_pay3 v0) k0_pay13)
      = hotStack (k0_pay3 (F := Ideal) v0) := rfl

/-- The body's stack of the neighbour labels is that stack. -/
theorem nsStack_eq (v2 : Vec Ideal S1000x128 .i32) :
    k0_pay1 (F := Ideal) (k0_pay40 (F := Ideal) (k0_pay4 v2)) (k0_pay41 (k0_pay31 (F := Ideal) (k0_pay4 v2))) (k0_pay42 (k0_pay32 (F := Ideal) (k0_pay4 v2))) (k0_pay43 (k0_pay33 (F := Ideal) (k0_pay4 v2))) (k0_pay44 (k0_pay34 (F := Ideal) (k0_pay4 v2))) (k0_pay45 (k0_pay35 (F := Ideal) (k0_pay4 v2))) (k0_pay46 (k0_pay36 (F := Ideal) (k0_pay4 v2))) (k0_pay47 (k0_pay37 (F := Ideal) (k0_pay4 v2))) (k0_pay48 (k0_pay38 (F := Ideal) (k0_pay4 v2))) (k0_pay49 (F := Ideal) (k0_pay39 (k0_pay4 v2))) (k0_pay50 (F := Ideal) (k0_pay4 v2)) (k0_pay51 (F := Ideal) (k0_pay4 v2)) (k0_pay52 (F := Ideal) (k0_pay4 v2)) (k0_pay53 (F := Ideal) (k0_pay4 v2)) (k0_pay54 (F := Ideal) (k0_pay4 v2)) (k0_pay55 (F := Ideal) (k0_pay4 v2))
      = hotStack (k0_pay4 (F := Ideal) v2) := rfl

/-! ## The matrix product and the sum over the rows -/

theorem lhs_dot_0 (j : S16x128000.Idx) (k : dot_S16x16_S16x128000_S16x128000_1_0_0_1_n_n.contr.Idx) :
    (dot_S16x16_S16x128000_S16x128000_1_0_0_1_n_n.lhsIdx j k 0).val = (j 0).val := by
  unfold DotDims.lhsIdx
  rw [dif_neg (show ¬(0 : Fin S16x16.rank) ∈ dot_S16x16_S16x128000_S16x128000_1_0_0_1_n_n.lhsBatch by decide),
    dif_pos (show (0 : Fin S16x16.rank) ∈ dot_S16x16_S16x128000_S16x128000_1_0_0_1_n_n.lhsNonContracting by decide)]
  rfl

theorem lhs_dot_1 (j : S16x128000.Idx) (k : dot_S16x16_S16x128000_S16x128000_1_0_0_1_n_n.contr.Idx) :
    (dot_S16x16_S16x128000_S16x128000_1_0_0_1_n_n.lhsIdx j k 1).val = (k ⟨0, by decide⟩).val :=
  DotDims.lhsIdx_val_of_single _ rfl j k

theorem rhs_dot_0 (j : S16x128000.Idx) (k : dot_S16x16_S16x128000_S16x128000_1_0_0_1_n_n.contr.Idx) :
    (dot_S16x16_S16x128000_S16x128000_1_0_0_1_n_n.rhsIdx j k 0).val = (k ⟨0, by decide⟩).val :=
  DotDims.rhsIdx_val_of_single _ rfl j k

theorem rhs_dot_1 (j : S16x128000.Idx) (k : dot_S16x16_S16x128000_S16x128000_1_0_0_1_n_n.contr.Idx) :
    (dot_S16x16_S16x128000_S16x128000_1_0_0_1_n_n.rhsIdx j k 1).val = (j 1).val := by
  unfold DotDims.rhsIdx
  rw [dif_neg (show ¬(1 : Fin S16x128000.rank) ∈ dot_S16x16_S16x128000_S16x128000_1_0_0_1_n_n.rhsBatch by decide),
    dif_pos (show (1 : Fin S16x128000.rank) ∈ dot_S16x16_S16x128000_S16x128000_1_0_0_1_n_n.rhsNonContracting by decide)]
  rfl

/-- The table times a 16 × 128000 stack, into a zero accumulator, at (a, e): Σ_b table(a, b) · stack(b, e). -/
theorem weighted_apply (tbl : Vec Ideal S16x16 .f32) (N : FVec Ideal S16x128000 .bf16) (a : Fin 16) (e : Fin 128000) :
    FloatOps.matmul dot_S16x16_S16x128000_S16x128000_1_0_0_1_n_n none (truncf .bf16 tbl bitsLt_bf16_f32) N
        (constant S16x128000 .f32 0x00000000#32) (ix2 a e)
      = ∑ b : Fin 16, tbl (ix2 a b) * N (ix2 b e) := by
  refine (Ideal.matmul_constant_zero_apply _ none _ N (ix2 a e)).trans ?_
  rw [← Equiv.sum_comp (contrEquiv1 dot_S16x16_S16x128000_S16x128000_1_0_0_1_n_n 16 rfl rfl).symm]
  refine Finset.sum_congr rfl fun b _ => ?_
  have e1 : dot_S16x16_S16x128000_S16x128000_1_0_0_1_n_n.lhsIdx (ix2 a e)
      ((contrEquiv1 dot_S16x16_S16x128000_S16x128000_1_0_0_1_n_n 16 rfl rfl).symm b) = ix2 a b := by
    funext c; apply Fin.ext
    match c with
    | ⟨0, _⟩ => exact lhs_dot_0 _ _
    | ⟨1, _⟩ => exact (lhs_dot_1 _ _).trans (contrEquiv1_symm_val _ 16 rfl rfl b)
  have e2 : dot_S16x16_S16x128000_S16x128000_1_0_0_1_n_n.rhsIdx (ix2 a e)
      ((contrEquiv1 dot_S16x16_S16x128000_S16x128000_1_0_0_1_n_n 16 rfl rfl).symm b) = ix2 b e := by
    funext c; apply Fin.ext
    match c with
    | ⟨0, _⟩ => exact (rhs_dot_0 _ _).trans (contrEquiv1_symm_val _ 16 rfl rfl b)
    | ⟨1, _⟩ => exact rhs_dot_1 _ _
  rw [e1, e2]
  rfl

/-- The reduced index with the row put back. -/
theorem lift_row (e : Fin 128000) (a : Fin 16) :
    reduces_S16x128000_S128000.lift (ix1 e) a = ix2 a e := by
  funext c; apply Fin.ext
  match c with
  | ⟨0, _⟩ => rfl
  | ⟨1, _⟩ => rfl

/-- The body's last value at (r, l), for any two stacks: the energy times the row sum of the weighted product. -/
theorem pay2_apply (v8 : FVec Ideal S128000 .f32) (C N : FVec Ideal S16x128000 .bf16) (tbl : Vec Ideal S16x16 .f32)
    (r : Fin 1000) (l : Fin 128) :
    k0_pay2 (F := Ideal) v8 C N tbl (ix2 r l)
      = v8 (ix1 (flat r l)) * ∑ a : Fin 16, C (ix2 a (flat r l)) * ∑ b : Fin 16, tbl (ix2 a b) * N (ix2 b (flat r l)) := by
  unfold k0_pay2
  refine (unflatten_apply _ r l).trans ?_
  refine congrArg (v8 (ix1 (flat r l)) * ·) ?_
  refine (Ideal.multiReduction_add_single _ 0x00000000#32 reduces_S16x128000_S128000 (.inl rfl) rfl (ix1 (flat r l))).trans ?_
  refine Finset.sum_congr rfl fun (a : Fin 16) _ => ?_
  rw [lift_row (flat r l) a]
  exact congrArg (C (ix2 a (flat r l)) * ·) (weighted_apply tbl N a (flat r l))

/-! ## The block's output -/

theorem hz : (![0, 0] : Fin 2 → Nat) = fun _ => 0 := funext fun a => by fin_cases a <;> rfl

/-- Entry (r, l) of what the body leaves in the output block, from the three input blocks and the table. -/
theorem out_apply (x0 x1 : Vec Ideal S1000x128 .i32) (x2 : Vec Ideal S1000x128 .f32) (x3 : Vec Ideal S16x16 .f32)
    (r : Fin 1000) (l : Fin 128) :
    out0_4 (F := Ideal) x0 x1 x2 x3 (ix2 r l) = x2 (ix2 r l) * scaleSum x3 (x0 (ix2 r l)) (x1 (ix2 r l)) := by
  unfold out0_4
  rw [View.canon_unit_zero hz]
  simp only [View.ld_unit_zero (S := S1000x128) hz, View.ld_unit_zero (S := S16x16) hz]
  rw [csStack_eq, nsStack_eq]
  refine (pay2_apply _ _ _ _ r l).trans ?_
  unfold scaleSum
  have h2 : k0_pay5 (F := Ideal) x2 (ix1 (flat r l)) = x2 (ix2 r l) := flatten_apply x2 r l
  have h0 : k0_pay3 (F := Ideal) x0 (ix1 (flat r l)) = x0 (ix2 r l) := flatten_apply x0 r l
  have h1 : k0_pay4 (F := Ideal) x1 (ix1 (flat r l)) = x1 (ix2 r l) := flatten_apply x1 r l
  rw [h2]
  refine congrArg (x2 (ix2 r l) * ·) ?_
  refine Finset.sum_congr rfl fun a _ => ?_
  rw [hotStack_apply, h0]
  refine congrArg (hot (x0 (ix2 r l)) (lab a) * ·) ?_
  refine Finset.sum_congr rfl fun b _ => ?_
  rw [hotStack_apply, h1]

end Cert.KernelIdeal.PayloadAt

end
-- ==== Proof.ArrayValue.lean ====
/-
  The kernel's output array, whole.

  Grid point t stages rows 1000 t … 1000 t + 999 of the three 50000 × 128 arrays (centre labels, neighbour labels, edge
  energies) and the whole 16 × 16 table, and writes back rows 1000 t … 1000 t + 999 of the output. The fifty blocks
  tile the output, and block t is the restriction of ONE function of the arrays: entry i of the output is
    eng(i) · Σ_a [cs(i) = a] · Σ_b table(a, b) · [ns(i) = b].
-/
import proofs.«427242_j64080912056845_1_alg».proof.Proof.Gen.KernelIdeal.Frame
import proofs.«427242_j64080912056845_1_alg».proof.Proof.PayloadAt

set_option maxRecDepth 16384

noncomputable section

namespace Cert.KernelIdeal.ArrayValue

open Idealize.ShloMosaic Idealize.ShloMosaic.ValueIdx Idealize.ShloMosaic.Pipeline Idealize.SL.Sem
open Cert.KernelIdeal Cert.KernelIdeal.Gen Cert.ScaleSum Cert.KernelIdeal.PayloadAt

variable (m : (ℓ : Loc nD τ sig) → Buf (Elt Ideal) ℓ)

/-- Each edge's energy times its species-pair scale, over the 50000 × 128 layout. -/
def scaled (cs ns : Vec Ideal S50000x128 .i32) (eng : Vec Ideal S50000x128 .f32) (tbl : Vec Ideal S16x16 .f32) :
    Vec Ideal S50000x128 .f32 :=
  fun i => eng i * scaleSum tbl (cs i) (ns i)

/-- The arrays as the region finds them, at their literal types. -/
abbrev csArr (c : Dev nD) : Vec Ideal S50000x128 .i32 := V m c main_v19
abbrev nsArr (c : Dev nD) : Vec Ideal S50000x128 .i32 := V m c main_v20
abbrev engArr (c : Dev nD) : Vec Ideal S50000x128 .f32 := V m c main_v21
abbrev tblArr (c : Dev nD) : Vec Ideal S16x16 .f32 := V m c main_arg1

/-- The blocks at a grid point, at their literal types. -/
abbrev csBlk (c : Dev nD) (t : Fin cfg0.N) : Vec Ideal S1000x128 .i32 := iblk m c 0 t
abbrev nsBlk (c : Dev nD) (t : Fin cfg0.N) : Vec Ideal S1000x128 .i32 := iblk m c 1 t
abbrev engBlk (c : Dev nD) (t : Fin cfg0.N) : Vec Ideal S1000x128 .f32 := iblk m c 2 t
abbrev tblBlk (c : Dev nD) (t : Fin cfg0.N) : Vec Ideal S16x16 .f32 := iblk m c 3 t

/-- The printed index maps over the grid: the three edge windows move with the output window, the table's stays. -/
theorem idx_facts : ∀ t : Fin cfg0.N, win0_0.index t (0 : Fin 2) = win0_4.index t (0 : Fin 2)
    ∧ win0_0.index t (1 : Fin 2) = win0_4.index t (1 : Fin 2)
    ∧ win0_1.index t (0 : Fin 2) = win0_4.index t (0 : Fin 2)
    ∧ win0_1.index t (1 : Fin 2) = win0_4.index t (1 : Fin 2)
    ∧ win0_2.index t (0 : Fin 2) = win0_4.index t (0 : Fin 2)
    ∧ win0_2.index t (1 : Fin 2) = win0_4.index t (1 : Fin 2)
    ∧ win0_3.index t (0 : Fin 2) = 0
    ∧ win0_3.index t (1 : Fin 2) = 0
    ∧ win0_4.index t (0 : Fin 2) ≤ 49
    ∧ win0_4.index t (1 : Fin 2) = 0 :=
  (by decide +kernel : ∀ t : Fin grid0.N, _)

/-- Every row block of the output is some point's. -/
theorem idx_onto : ∀ q : Fin 50, ∃ t : Fin cfg0.N, win0_4.index t = ![q.val, 0] :=
  (by decide +kernel : ∀ q : Fin 50, ∃ t : Fin grid0.N, win0_4.index t = ![q.val, 0])

/-- The table's block is the table. -/
theorem tblBlk_eq (c : Dev nD) (t : Fin cfg0.N) : tblBlk m c t = tblArr m c := by
  obtain ⟨-, -, -, -, -, -, e6, e7, -, -⟩ := idx_facts t
  funext y
  show V m c main_arg1 (((cfg0.win 3).blk t).view.emb y) = V m c main_arg1 y
  congr 1
  funext a; apply Fin.ext
  match a with
  | ⟨0, _⟩ => show win0_3.index t (0 : Fin 2) * 16 + 1 * (y 0).val = (y 0).val; omega
  | ⟨1, _⟩ => show win0_3.index t (1 : Fin 2) * 16 + 1 * (y 1).val = (y 1).val; omega

/-- WHAT POINT t WRITES BACK is block t of `scaled` of the arrays. -/
theorem flushed_eq (c : Dev nD) (t : Fin cfg0.N) :
    (dats m 0 c).flushed 4 t
      = ((cfg0.win 4).blk t).view.read (Elt Ideal) (scaled (csArr m c) (nsArr m c) (engArr m c) (tblArr m c)) := by
  show (cfg0.win 4).cut (grid0.coords t) ((dats m 0 c).after 4 t) = _
  rw [after0_4]
  obtain ⟨e0, e1, e2, e3, e4, e5, -, -, -, -⟩ := idx_facts t
  funext j
  show out0_4 (F := Ideal) (csBlk m c t) (nsBlk m c t) (engBlk m c t) (tblBlk m c t) j
    = scaled (csArr m c) (nsArr m c) (engArr m c) (tblArr m c) (((cfg0.win 4).blk t).view.emb j)
  rw [eq_ix2 j]
  refine (out_apply (csBlk m c t) (nsBlk m c t) (engBlk m c t) (tblBlk m c t) (j 0) (j 1)).trans ?_
  rw [← eq_ix2 j, tblBlk_eq]
  have h0 : ((cfg0.win 0).blk t).view.emb j = ((cfg0.win 4).blk t).view.emb j := by
    funext a; apply Fin.ext
    match a with
    | ⟨0, _⟩ => show win0_0.index t (0 : Fin 2) * 1000 + 1 * (j 0).val = win0_4.index t (0 : Fin 2) * 1000 + 1 * (j 0).val; omega
    | ⟨1, _⟩ => show win0_0.index t (1 : Fin 2) * 128 + 1 * (j 1).val = win0_4.index t (1 : Fin 2) * 128 + 1 * (j 1).val; omega
  have h1 : ((cfg0.win 1).blk t).view.emb j = ((cfg0.win 4).blk t).view.emb j := by
    funext a; apply Fin.ext
    match a with
    | ⟨0, _⟩ => show win0_1.index t (0 : Fin 2) * 1000 + 1 * (j 0).val = win0_4.index t (0 : Fin 2) * 1000 + 1 * (j 0).val; omega
    | ⟨1, _⟩ => show win0_1.index t (1 : Fin 2) * 128 + 1 * (j 1).val = win0_4.index t (1 : Fin 2) * 128 + 1 * (j 1).val; omega
  have h2 : ((cfg0.win 2).blk t).view.emb j = ((cfg0.win 4).blk t).view.emb j := by
    funext a; apply Fin.ext
    match a with
    | ⟨0, _⟩ => show win0_2.index t (0 : Fin 2) * 1000 + 1 * (j 0).val = win0_4.index t (0 : Fin 2) * 1000 + 1 * (j 0).val; omega
    | ⟨1, _⟩ => show win0_2.index t (1 : Fin 2) * 128 + 1 * (j 1).val = win0_4.index t (1 : Fin 2) * 128 + 1 * (j 1).val; omega
  show engArr m c (((cfg0.win 2).blk t).view.emb j)
      * scaleSum (tblArr m c) (csArr m c (((cfg0.win 0).blk t).view.emb j)) (nsArr m c (((cfg0.win 1).blk t).view.emb j))
    = engArr m c (((cfg0.win 4).blk t).view.emb j)
      * scaleSum (tblArr m c) (csArr m c (((cfg0.win 4).blk t).view.emb j)) (nsArr m c (((cfg0.win 4).blk t).view.emb j))
  rw [h0, h1, h2]

/-- An index of the output is in point t's block iff each coordinate is in the block's range on its axis. -/
theorem mem_blk (t : Fin cfg0.N) (i : S50000x128.Idx) :
    i ∈ ((cfg0.win 4).blk t).view.set ↔ ∀ a : Fin 2, win0_4.index t a * S1000x128.size a ≤ (i a).val ∧ (i a).val < win0_4.index t a * S1000x128.size a + S1000x128.size a := by
  show i ∈ ((View.whole main_v22).slice (win0_4.rect t)).set ↔ _
  rw [View.set_slice_whole, Rect.mem_set_unit]
  exact Iff.rfl

/-- The fifty blocks cover the output. -/
theorem cover (i : S50000x128.Idx) : ∃ t : Fin cfg0.N, (cfg0.win 4).flush t = true ∧ i ∈ ((cfg0.win 4).blk t).view.set := by
  have hi0 : (i 0).val < 50000 := (i 0).isLt
  have hi1 : (i 1).val < 128 := (i 1).isLt
  obtain ⟨t, ht⟩ := idx_onto ⟨(i 0).val / 1000, by omega⟩
  have q0 : win0_4.index t (0 : Fin 2) = (i 0).val / 1000 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 1000 ≤ (i 0).val ∧ (i 0).val < win0_4.index t (0 : Fin 2) * 1000 + 1000; omega
  | ⟨1, _⟩ => show win0_4.index t (1 : Fin 2) * 128 ≤ (i 1).val ∧ (i 1).val < win0_4.index t (1 : Fin 2) * 128 + 128; omega

/-- THE OUTPUT ARRAY after the region: `scaled` of the arrays as the region found them. -/
theorem final (c : Dev nD) :
    (dats m 0 c).arrAt 4 cfg0.N = scaled (csArr m c) (nsArr m c) (engArr m c) (tblArr m c) :=
  (dats m 0 c).arrAt_eq_of_cover 4 _ (fun t _ => flushed_eq m c t) cover

end Cert.KernelIdeal.ArrayValue

end
-- ==== Proof.EdgeTerms.lean ====
/-
  The host-side pieces both programs share, named once.

  From edge_index (2 × E) the edges' centre and neighbour node indices are its two rows. A node index is wrapped the
  way jnp wraps a negative index (add the extent if negative) and then looks up the node's species (a gather, which
  clamps). The reference wraps the two species the same way for the 16 × 16 table and looks the scale up there (a
  gather at the pair), multiplies the edge energies by it, and both programs then scatter-add the per-edge values into
  the centre nodes and multiply by 1/8.
-/
import proofs.«427242_j64080912056845_1_alg».proof.Proof.Gen.ReferenceIdeal
import Idealize.ShloMosaic.PureOps.Ideal

noncomputable section

namespace Cert.EdgeTerms

open Idealize.ShloMosaic Cert.ReferenceIdeal Cert.ReferenceIdeal.Gen

/-- Row 0 of edge_index: each edge's centre node. -/
def centres (a2 : IVec S2x6400000 32) : IVec S6400000 32 :=
  shapeCast S6400000 (extractStridedSlice S1x6400000 ![0, 0] a2 slices_S2x6400000_S1x6400000_0_0) shapeCasts_S1x6400000_S6400000

/-- Row 1 of edge_index: each edge's neighbour node. -/
def neighbours (a2 : IVec S2x6400000 32) : IVec S6400000 32 :=
  shapeCast S6400000 (extractStridedSlice S1x6400000 ![1, 0] a2 slices_S2x6400000_S1x6400000_1_0) shapeCasts_S1x6400000_S6400000

/-- A node index with 100000 added when negative. -/
def wrapNode (x : IVec S6400000 32) : IVec S6400000 32 :=
  select (cmpi .slt x (broadcastInDim S6400000 ![] bcast_S_S6400000 (constantI S_ 32 0#32)))
    (addi x (broadcastInDim S6400000 ![] bcast_S_S6400000 (constantI S_ 32 100000#32))) x

/-- The species of each edge's node `x`: the species table gathered at the wrapped node indices. -/
def speciesOf (a3 : IVec S100000 32) (x : IVec S6400000 32) : IVec S6400000 32 :=
  Host.gather gather_S100000_S6400000x1_S6400000_n_0_n_n_0_1_1 a3
    (broadcastInDim S6400000x1 ![0] bcast_S6400000_S6400000x1_0 (wrapNode x))

/-- A label with 16 added when negative. -/
def wrapLabel (x : IVec S6400000 32) : IVec S6400000 32 :=
  select (cmpi .slt x (broadcastInDim S6400000 ![] bcast_S_S6400000 (constantI S_ 32 0#32)))
    (addi x (broadcastInDim S6400000 ![] bcast_S_S6400000 (constantI S_ 32 16#32))) x

/-- The table gathered at each edge's (centre species, neighbour species). -/
def tableAt (a1 : FVec Ideal S16x16 .f32) (cs ns : IVec S6400000 32) : FVec Ideal S6400000 .f32 :=
  Host.gather gather_S16x16_S6400000x2_S6400000_n_01_n_n_01_1_11 a1
    (concatenate S6400000x2 1
      [⟨S6400000x1, broadcastInDim S6400000x1 ![0] bcast_S6400000_S6400000x1_0 (wrapLabel cs)⟩,
       ⟨S6400000x1, broadcastInDim S6400000x1 ![0] bcast_S6400000_S6400000x1_0 (wrapLabel ns)⟩]
      concatenates_S6400000x1_S6400000x1_S6400000x2_d1)

/-- The reference's per-edge value: the edge energy times the table's entry at the two species. -/
def refUpd (a0 : FVec Ideal S6400000x1 .f32) (a1 : FVec Ideal S16x16 .f32) (a2 : IVec S2x6400000 32) (a3 : IVec S100000 32) :
    FVec Ideal S6400000x1 .f32 :=
  mulf a0 (broadcastInDim S6400000x1 ![0] bcast_S6400000_S6400000x1_0
    (tableAt a1 (speciesOf a3 (centres a2)) (speciesOf a3 (neighbours a2))))

/-- What both programs do with the per-edge values: scatter-add them into the centre nodes, from zero, and
    multiply by 1/8. -/
def tail (ec : IVec S6400000 32) (upd : FVec Ideal S6400000x1 .f32) : FVec Ideal S100000x1 .f32 :=
  mulf (Host.scatterAdd scatter_S100000x1_S6400000x1_S6400000x1_1_0_0_1
      (broadcastInDim S100000x1 ![] bcast_S_S100000x1 (constant (F := Ideal) S_ .f32 0x00000000#32))
      (broadcastInDim S6400000x1 ![0] bcast_S6400000_S6400000x1_0 ec) upd)
    (broadcastInDim S100000x1 ![] bcast_S_S100000x1 (constant (F := Ideal) S_ .f32 0x3E000000#32))

end Cert.EdgeTerms

end
-- ==== Proof.Words.lean ====
/-
  Facts about a 32-bit word that is a label, 0 ≤ w < 16 read signed.

  Such a word is below 16 as a natural number; it is not negative, so adding 16 to negative words leaves it alone;
  and read signed and clamped into [0, 15] it is itself.
-/
import Idealize.ShloMosaic.PureOps
import Idealize.ShloMosaic.Lib.ValueIdx
import Idealize.ShloMosaic.Lib.StableHlo.Predicate

namespace Cert.Words

open Idealize.ShloMosaic Idealize.ShloMosaic.ValueIdx

/-- A word that is ≥ 0 read signed has its top bit clear. -/
theorem toNat_lt_of_sge_zero (w : BitVec 32) (h0 : IntOp.cmpi .sge w 0#32 = 1#1) : w.toNat < 2 ^ 31 := by
  unfold IntOp.cmpi at h0
  rw [StableHlo.Predicate.ofBool_eq_one_iff] at h0
  simp only [BitVec.sle, decide_eq_true_eq] at h0
  have z : (0#32 : BitVec 32).toInt = 0 := by decide
  rw [z, BitVec.toInt_eq_msb_cond] at h0
  have hw := w.isLt
  by_cases hb : w.msb = true
  · rw [if_pos hb] at h0
    omega
  · have hf : w.msb = false := by simpa using hb
    have := BitVec.msb_eq_false_iff_two_mul_lt.mp hf
    omega

/-- 0 ≤ w < 16 read signed: w is below 16. -/
theorem toNat_lt_of_range (w : BitVec 32) (h0 : IntOp.cmpi .sge w 0#32 = 1#1) (h1 : IntOp.cmpi .slt w 16#32 = 1#1) :
    w.toNat < 16 := by
  have hm := toNat_lt_of_sge_zero w h0
  have := (StableHlo.Predicate.slt_iff_toNat hm (by decide)).mp h1
  simpa using this

/-- A label is not negative. -/
theorem slt_zero_of_lt (w : BitVec 32) (h : w.toNat < 16) : IntOp.cmpi .slt w 0#32 = 0#1 := by
  apply eq_zero_of_ne_one
  intro h1
  have := (StableHlo.Predicate.slt_iff_toNat (a := w) (b := 0#32) (by omega) (by decide)).mp h1
  simp at this

/-- "Add 16 if negative" leaves a label alone. -/
theorem wrap_of_lt (w : BitVec 32) (h : w.toNat < 16) :
    Scalar.select (IntOp.cmpi .slt w 0#32) (IntOp.addi w 16#32) w = w := by
  rw [slt_zero_of_lt w h, select_zero]

/-- Read signed and clamped into [0, 15], a label is itself. -/
theorem clamp_of_lt (w : BitVec 32) (h : w.toNat < 16) : min w.toInt.toNat 15 = w.toNat := by
  rw [StableHlo.Predicate.toInt_eq_toNat_of_lt (by omega), Int.toNat_natCast]
  omega

end Cert.Words
-- ==== Proof.RefValue.lean ====
/-
  The reference's result as a function of the argument arrays.

  The reference's run ends with its result at `tail (centres edge_index) (refUpd …)` (the shared terms). When every
  species is a label, below 16, each edge's two species are labels (a gather returns an entry of the species array),
  the wrap by 16 and the gather's clamp leave them alone, and the table gathered at the pair is the table's entry
  there: entry (e, 0) of the per-edge values is
    edge_eng(e, 0) · table(cs(e), ns(e)) = edge_eng(e, 0) · Σ_a [cs(e) = a] · Σ_b table(a, b) · [ns(e) = b].
-/
import proofs.«427242_j64080912056845_1_alg».proof.Proof.Gen.ReferenceIdeal.Run
import proofs.«427242_j64080912056845_1_alg».proof.Proof.ScaleSum
import proofs.«427242_j64080912056845_1_alg».proof.Proof.Words
import proofs.«427242_j64080912056845_1_alg».proof.Proof.EdgeTerms
import Idealize.ShloMosaic.Lib.Pipeline.Value

set_option maxRecDepth 16384

noncomputable section

namespace Cert.RefValue

open Idealize.ShloMosaic Idealize.ShloMosaic.ValueIdx Idealize.SL.Sem
open Cert.ReferenceIdeal Cert.ReferenceIdeal.Gen Cert.EdgeTerms Cert.ScaleSum

/-- A vector laid as an [E × 1] column reads, at (e, ·), the vector at e. -/
theorem col_apply {α : Type} (v : S6400000.Idx → α) (j : S6400000x1.Idx) :
    broadcastInDim S6400000x1 ![0] bcast_S6400000_S6400000x1_0 v j = v (ix1 (j 0)) := by
  simp only [broadcastInDim]
  congr 1
  funext a
  have ha : a = 0 := Subsingleton.elim _ _
  subst ha
  apply Fin.ext
  split
  · next h1 => exact absurd h1 (by decide)
  · rfl

/-- Each edge's species is an entry of the species array: a label when they all are. -/
theorem speciesOf_lt (a3 : IVec S100000 32) (hsp : ∀ n, (a3 n).toNat < 16) (x : IVec S6400000 32) (j : S6400000.Idx) :
    (speciesOf a3 x j).toNat < 16 := by
  unfold speciesOf Host.gather
  exact hsp _

/-- The wrap by 16 leaves a label alone. -/
theorem wrapLabel_apply (x : IVec S6400000 32) (j : S6400000.Idx) (h : (x j).toNat < 16) : wrapLabel x j = x j :=
  Cert.Words.wrap_of_lt (x j) h

/-- The start-index position the table gather reads component k of edge e's pair at. -/
theorem siIdx_pair (e : Fin 6400000) (k : Fin 2) (hk : k.val < gather_S16x16_S6400000x2_S6400000_n_01_n_n_01_1_11.startIndexMap.length) :
    gather_S16x16_S6400000x2_S6400000_n_01_n_n_01_1_11.siIdx (ix1 e) ⟨k.val, hk⟩ = ix2 e k := by
  funext b
  match b with
  | ⟨0, _⟩ => rfl
  | ⟨1, _⟩ => rfl

/-- The table gather reads, on axis k, the k-th component of the edge's pair, read signed and clamped into [0, 15]. -/
theorem operandIdx_pair (idx : IVec S6400000x2 32) (e : Fin 6400000) (k : Fin 2) :
    (gather_S16x16_S6400000x2_S6400000_n_01_n_n_01_1_11.operandIdx (ix1 e) idx k).val = min (idx (ix2 e k)).toInt.toNat 15 := by
  match k with
  | ⟨0, _⟩ =>
    have hm : (0 : Fin 2) ∈ gather_S16x16_S6400000x2_S6400000_n_01_n_n_01_1_11.startIndexMap := by decide
    have hb : (0 : Fin 2) ∉ gather_S16x16_S6400000x2_S6400000_n_01_n_n_01_1_11.operandBatchingDims := by decide
    have hk : (0 : Fin 2) ∉ gather_S16x16_S6400000x2_S6400000_n_01_n_n_01_1_11.sKept := by decide
    show gather_S16x16_S6400000x2_S6400000_n_01_n_n_01_1_11.start (ix1 e) idx 0
        + gather_S16x16_S6400000x2_S6400000_n_01_n_n_01_1_11.batchCoord (ix1 e) 0
        + gather_S16x16_S6400000x2_S6400000_n_01_n_n_01_1_11.offCoord (ix1 e) 0 = _
    rw [GatherDims.batchCoord_eq_zero _ _ _ hb, GatherDims.offCoord_eq_zero _ _ _ hk, Nat.add_zero]
    unfold GatherDims.start
    rw [dif_pos hm]
    exact congrArg (fun q => min (idx q).toInt.toNat 15) (siIdx_pair e 0 (by decide))
  | ⟨1, _⟩ =>
    have hm : (1 : Fin 2) ∈ gather_S16x16_S6400000x2_S6400000_n_01_n_n_01_1_11.startIndexMap := by decide
    have hb : (1 : Fin 2) ∉ gather_S16x16_S6400000x2_S6400000_n_01_n_n_01_1_11.operandBatchingDims := by decide
    have hk : (1 : Fin 2) ∉ gather_S16x16_S6400000x2_S6400000_n_01_n_n_01_1_11.sKept := by decide
    show gather_S16x16_S6400000x2_S6400000_n_01_n_n_01_1_11.start (ix1 e) idx 1
        + gather_S16x16_S6400000x2_S6400000_n_01_n_n_01_1_11.batchCoord (ix1 e) 1
        + gather_S16x16_S6400000x2_S6400000_n_01_n_n_01_1_11.offCoord (ix1 e) 1 = _
    rw [GatherDims.batchCoord_eq_zero _ _ _ hb, GatherDims.offCoord_eq_zero _ _ _ hk, Nat.add_zero]
    unfold GatherDims.start
    rw [dif_pos hm]
    exact congrArg (fun q => min (idx q).toInt.toNat 15) (siIdx_pair e 1 (by decide))

/-- Component 0 of edge e's pair is its wrapped centre species. -/
theorem pair_left (x y : IVec S6400000 32) (e : Fin 6400000) :
    concatenate S6400000x2 1
      [⟨S6400000x1, broadcastInDim S6400000x1 ![0] bcast_S6400000_S6400000x1_0 x⟩,
       ⟨S6400000x1, broadcastInDim S6400000x1 ![0] bcast_S6400000_S6400000x1_0 y⟩]
      concatenates_S6400000x1_S6400000x1_S6400000x2_d1 (ix2 e (0 : Fin 2)) = x (ix1 e) := by
  refine (concatenate_pair_apply_left (t := S6400000x2) (s₁ := S6400000x1) (s₂ := S6400000x1) (1 : Fin 2) _ _
    concatenates_S6400000x1_S6400000x1_S6400000x2_d1 (ix2 e (0 : Fin 2)) rfl (ix2 e (0 : Fin 1)) (fun b => ?_)).trans (col_apply x _)
  match b with
  | ⟨0, _⟩ => rfl
  | ⟨1, _⟩ => rfl

/-- Component 1 of edge e's pair is its wrapped neighbour species. -/
theorem pair_right (x y : IVec S6400000 32) (e : Fin 6400000) :
    concatenate S6400000x2 1
      [⟨S6400000x1, broadcastInDim S6400000x1 ![0] bcast_S6400000_S6400000x1_0 x⟩,
       ⟨S6400000x1, broadcastInDim S6400000x1 ![0] bcast_S6400000_S6400000x1_0 y⟩]
      concatenates_S6400000x1_S6400000x1_S6400000x2_d1 (ix2 e (1 : Fin 2)) = y (ix1 e) := by
  refine (concatenate_pair_apply_right (t := S6400000x2) (s₁ := S6400000x1) (s₂ := S6400000x1) (1 : Fin 2) _ _
    concatenates_S6400000x1_S6400000x1_S6400000x2_d1 (ix2 e (1 : Fin 2)) rfl rfl (ix2 e (0 : Fin 1)) (fun b hb => ?_) rfl).trans (col_apply y _)
  match b with
  | ⟨0, _⟩ => rfl
  | ⟨1, _⟩ => exact absurd rfl hb

/-- The table gathered at a pair of labels is the table's entry there. -/
theorem tableAt_apply (a1 : FVec Ideal S16x16 .f32) (cs ns : IVec S6400000 32) (e : Fin 6400000)
    (hc : (cs (ix1 e)).toNat < 16) (hn : (ns (ix1 e)).toNat < 16) :
    tableAt a1 cs ns (ix1 e) = a1 (ix2 ⟨(cs (ix1 e)).toNat, hc⟩ ⟨(ns (ix1 e)).toNat, hn⟩) := by
  unfold tableAt Host.gather
  congr 1
  funext a; apply Fin.ext
  match a with
  | ⟨0, _⟩ =>
    refine (operandIdx_pair _ e 0).trans ?_
    rw [pair_left, wrapLabel_apply cs (ix1 e) hc]
    exact Cert.Words.clamp_of_lt _ hc
  | ⟨1, _⟩ =>
    refine (operandIdx_pair _ e 1).trans ?_
    rw [pair_right, wrapLabel_apply ns (ix1 e) hn]
    exact Cert.Words.clamp_of_lt _ hn

/-- Entry j of the reference's per-edge values, when every species is a label. -/
theorem refUpd_apply (a0 : FVec Ideal S6400000x1 .f32) (a1 : FVec Ideal S16x16 .f32) (a2 : IVec S2x6400000 32) (a3 : IVec S100000 32)
    (hsp : ∀ n, (a3 n).toNat < 16) (j : S6400000x1.Idx) :
    refUpd a0 a1 a2 a3 j
      = a0 j * scaleSum a1 (speciesOf a3 (centres a2) (ix1 (j 0))) (speciesOf a3 (neighbours a2) (ix1 (j 0))) := by
  unfold refUpd
  rw [mulf_apply, col_apply,
    tableAt_apply a1 _ _ (j 0) (speciesOf_lt a3 hsp _ _) (speciesOf_lt a3 hsp _ _),
    scaleSum_eq a1 _ _ (speciesOf_lt a3 hsp _ _) (speciesOf_lt a3 hsp _ _)]

/-- The reference's result term is the shared tail of the centre nodes and its per-edge values. -/
theorem res_eq (m : (ℓ : Loc nD τ sig) → Buf (Elt Ideal) ℓ) (c : Dev nD) :
    Cert.ReferenceIdeal.Value.res_main_v38 (F := Ideal) m c
      = tail (centres (m ((c.tc : Thread nD τ).loc main_arg2)))
          (refUpd (m ((c.tc : Thread nD τ).loc main_arg0)) (m ((c.tc : Thread nD τ).loc main_arg1))
            (m ((c.tc : Thread nD τ).loc main_arg2)) (m ((c.tc : Thread nD τ).loc main_arg3))) := by
  unfold Cert.ReferenceIdeal.Value.res_main_v38
  rfl

end Cert.RefValue

end
-- ==== Proof.HostValue.lean ====
/-
  The kernel's host operations around its region.

  Before the region the program forms the edges' centre and neighbour species (the shared terms) and lays them, and
  the edge energies, out as 50000 × 128 arrays: position (q, r) holds edge 128 q + r. After the region it flattens
  the output back to one value per edge, as an [E × 1] column, scatter-adds the column into the centre nodes and
  multiplies by 1/8: the shared tail. So entry (e, 0) of the kernel's per-edge values is
    edge_eng(e, 0) · Σ_a [cs(e) = a] · Σ_b table(a, b) · [ns(e) = b].
-/
import proofs.«427242_j64080912056845_1_alg».proof.Proof.Gen.KernelIdeal.Frame
import proofs.«427242_j64080912056845_1_alg».proof.Proof.ArrayValue
import proofs.«427242_j64080912056845_1_alg».proof.Proof.EdgeTerms
import proofs.«427242_j64080912056845_1_alg».proof.Proof.RefValue
import Idealize.ShloMosaic.Lib.StableHlo.Run

set_option maxRecDepth 16384

noncomputable section

namespace Cert.KernelIdeal.HostValue

open Idealize.ShloMosaic Idealize.ShloMosaic.TcCoe Idealize.ShloMosaic.ValueIdx Idealize.ShloMosaic.Pipeline Idealize.SL.Sem
open Idealize.ShloMosaic.StableHlo
open Cert.KernelIdeal Cert.KernelIdeal.Gen Cert.KernelIdeal.ArrayValue Cert.EdgeTerms Cert.ScaleSum

variable (m : (ℓ : Loc nD τ sig) → Buf (Elt Ideal) ℓ)

/-- The arguments at their literal types. -/
abbrev eng (c : Dev nD) : FVec Ideal S6400000x1 .f32 := m ((c.tc : Thread nD τ).loc main_arg0)
abbrev tbl (c : Dev nD) : FVec Ideal S16x16 .f32 := m ((c.tc : Thread nD τ).loc main_arg1)
abbrev eidx (c : Dev nD) : IVec S2x6400000 32 := m ((c.tc : Thread nD τ).loc main_arg2)
abbrev spc (c : Dev nD) : IVec S100000 32 := m ((c.tc : Thread nD τ).loc main_arg3)

/-! ## Before the region -/

theorem V_centres (c : Dev nD) : (V m c main_v1 : IVec S6400000 32) = centres (eidx m c) := by
  show StableHlo.after hostOps0 (fun b => m (c, b)) (Proc.devRef .tc main_v1) = _
  after_results
  rfl

theorem csArr_eq (c : Dev nD) :
    csArr m c = shapeCast S50000x128 (speciesOf (spc m c) (centres (eidx m c))) shapeCasts_S6400000_S50000x128 := by
  show StableHlo.after hostOps0 (fun b => m (c, b)) (Proc.devRef .tc main_v19) = _
  after_results
  rfl

theorem nsArr_eq (c : Dev nD) :
    nsArr m c = shapeCast S50000x128 (speciesOf (spc m c) (neighbours (eidx m c))) shapeCasts_S6400000_S50000x128 := by
  show StableHlo.after hostOps0 (fun b => m (c, b)) (Proc.devRef .tc main_v20) = _
  after_results
  rfl

theorem engArr_eq (c : Dev nD) :
    engArr m c = shapeCast S50000x128 (shapeCast S6400000 (eng m c) shapeCasts_S6400000x1_S6400000) shapeCasts_S6400000_S50000x128 := by
  show StableHlo.after hostOps0 (fun b => m (c, b)) (Proc.devRef .tc main_v21) = _
  after_results
  rfl

theorem tblArr_eq (c : Dev nD) : tblArr m c = tbl m c := V_main_arg1 m c

/-! ## The layout -/

/-- Position (q, r) of the 50000 × 128 layout holds edge 128 q + r. -/
theorem unflat_apply {α : Type} (v : S6400000.Idx → α) (q : Fin 50000) (r : Fin 128) (e : Fin 6400000)
    (he : e.val = q.val * 128 + r.val) :
    shapeCast S50000x128 v shapeCasts_S6400000_S50000x128 (ix2 q r) = v (ix1 e) :=
  shapeCast_apply v _ _ _ (by rw [Shape.rowMajor_val_one, Shape.rowMajor_val_two]; exact he)

/-- Edge e of the flattened layout is position (e / 128, e mod 128). -/
theorem flat_apply {α : Type} (A : S50000x128.Idx → α) (e : Fin 6400000) (q : Fin 50000) (r : Fin 128)
    (he : e.val = q.val * 128 + r.val) :
    shapeCast S6400000 A shapeCasts_S50000x128_S6400000 (ix1 e) = A (ix2 q r) :=
  shapeCast_apply A _ _ _ (by rw [Shape.rowMajor_val_two, Shape.rowMajor_val_one]; exact he.symm)

/-- An [E × 1] column flattened reads, at e, the column at (e, 0). -/
theorem colflat_apply {α : Type} (x : S6400000x1.Idx → α) (e : Fin 6400000) :
    shapeCast S6400000 x shapeCasts_S6400000x1_S6400000 (ix1 e) = x (ix2 e (0 : Fin 1)) :=
  shapeCast_apply x _ _ _ (by rw [Shape.rowMajor_val_two, Shape.rowMajor_val_one]; show e.val * 1 + 0 = e.val; omega)

/-! ## After the region -/

/-- The kernel's per-edge values: the output array flattened, as an [E × 1] column. -/
def kerUpd (c : Dev nD) : FVec Ideal S6400000x1 .f32 :=
  broadcastInDim S6400000x1 ![0] bcast_S6400000_S6400000x1_0
    (shapeCast S6400000 (scaled (csArr m c) (nsArr m c) (engArr m c) (tblArr m c)) shapeCasts_S50000x128_S6400000)

/-- The result buffer after the host operations that follow the region: the shared tail of the centre nodes and the
    kernel's per-edge values. -/
theorem result_eq (c : Dev nD) :
    Pipeline.afterTail₀ cfgs (dats m) 0 (V0 m) [hostOps1] c main_v29 = tail (centres (eidx m c)) (kerUpd m c) := by
  unfold Pipeline.afterTail₀
  show StableHlo.after hostOps1 _ (Proc.devRef .tc main_v29) = _
  after_results
  have h22 : Pipeline.withArrays (cfgs 0).spec c (V0 m c) (fun w => (dats m 0 c).arrAt w (cfgs 0).N) (Proc.devRef .tc main_v22)
      = scaled (csArr m c) (nsArr m c) (engArr m c) (tblArr m c) :=
    (Pipeline.withArrays_arr spec0 launch0.win.arr_inj c _ _ 4).trans (final m c)
  have h1 : Pipeline.withArrays (cfgs 0).spec c (V0 m c) (fun w => (dats m 0 c).arrAt w (cfgs 0).N) (Proc.devRef .tc main_v1)
      = centres (eidx m c) :=
    (Pipeline.withArrays_of_ne _ c (V0 m c) _ main_v1 (by exact (by decide : ∀ w, Pipeline.arrRef spec0 w ≠ main_v1))).trans
      (V_centres m c)
  rw [h22, h1]
  rfl

/-- Entry (e, ·) of the kernel's per-edge values. -/
theorem kerUpd_apply (c : Dev nD) (e : Fin 6400000) (u : Fin 1) :
    kerUpd m c (ix2 e u) = eng m c (ix2 e u) * scaleSum (tbl m c) (speciesOf (spc m c) (centres (eidx m c)) (ix1 e))
      (speciesOf (spc m c) (neighbours (eidx m c)) (ix1 e)) := by
  have hu : u = 0 := Subsingleton.elim _ _
  subst hu
  have hj : e.val < 6400000 := e.isLt
  have hq : e.val / 128 < 50000 := by omega
  have hr : e.val % 128 < 128 := Nat.mod_lt _ (by decide)
  have he : e.val = (⟨e.val / 128, hq⟩ : Fin 50000).val * 128 + (⟨e.val % 128, hr⟩ : Fin 128).val := by
    show e.val = e.val / 128 * 128 + e.val % 128
    omega
  unfold kerUpd
  refine (Cert.RefValue.col_apply _ (ix2 e (0 : Fin 1))).trans ?_
  show shapeCast S6400000 (scaled (csArr m c) (nsArr m c) (engArr m c) (tblArr m c)) shapeCasts_S50000x128_S6400000 (ix1 e) = _
  rw [flat_apply _ e ⟨e.val / 128, hq⟩ ⟨e.val % 128, hr⟩ he]
  unfold scaled
  rw [csArr_eq, nsArr_eq, engArr_eq, tblArr_eq, unflat_apply _ _ _ e he, unflat_apply _ _ _ e he,
    unflat_apply _ _ _ e he, colflat_apply]

/-! ## The run, read -/

variable (ρ : Dev nD → PrngReg)

/-- The frame run re-posted: the result at the shared tail of the kernel's per-edge values, the arguments unchanged. -/
theorem run_value : θ_run defs (onTc (τ := τ) (main (F := Ideal))) ⟨m, fun _ => 0, ρ⟩ (fun r => ∀ c : Dev nD,
      r.2.mem ((c.tc : Thread nD τ).loc main_v29) = tail (centres (eidx m c)) (kerUpd m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v29 (Pipeline.mem_restRefs_of main_v29 (by decide) (by decide))).trans (result_eq m c),
      ((h c).2 main_arg0 (Pipeline.mem_restRefs_of main_arg0 (by decide) (by decide))).trans (W_main_arg0 m (dats m) c),
      ((h c).1 3).trans (((dats m 0 c).arrAt_in 3 rfl _).trans ((A_eq m c 3).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.HostValue

end
-- ==== Proof.PreDecode.lean ====
/-
  What the precondition says of the species: every one is a label, below 16.

  The printed precondition is a conjunction; its last conjunct is the "and" over all nodes n of
  (0 ≤ species(n)) ∧ (species(n) < 16), both compared signed. The whole being 1, that conjunct is 1, so it is 1 at
  every node, and a word in that range is below 16 as a natural number.
-/
import proofs.«427242_j64080912056845_1_alg».proof.Pre_finite_inputs
import proofs.«427242_j64080912056845_1_alg».proof.Proof.Words
import Idealize.ShloMosaic.PureOps.Ideal
import Idealize.ShloMosaic.Lib.ReduceAll

noncomputable section

namespace Cert.PreDecode

open Idealize.ShloMosaic Cert.Pre_finite_inputs

variable [Cert.Pre_finite_inputs.Facts]

instance : Subsingleton S_.Idx := ⟨fun _ _ => funext fun d => d.elim0⟩

theorem species_lt (a0 : FVec Ideal S6400000x1 .f32) (a1 : FVec Ideal S16x16 .f32) (a2 : IVec S2x6400000 32) (a3 : IVec S100000 32)
    (h : Cert.Pre_finite_inputs.fn (F := Ideal) a0 a1 a2 a3 = fun _ => 1#1) (n : S100000.Idx) : (a3 n).toNat < 16 := by
  have h0 := congrFun h ValueIdx.ix0
  dsimp only [Cert.Pre_finite_inputs.fn] at h0
  have h14 := (IntOp.andi_eq_one.mp h0).2
  have hn := Host.reduce_andi_all _ _ _ _ _ h14 n
  have hr := IntOp.andi_eq_one.mp hn
  exact Cert.Words.toNat_lt_of_range (a3 n) hr.1 hr.2

end Cert.PreDecode

end
-- ==== Proof.Bridge.lean ====
/-
  The two idealized programs compute the same per-atom energies.

  Both end with the shared tail (scatter-add into the centre nodes, times 1/8) of the same centre nodes and of
  per-edge values. The kernel's value at edge e is edge_eng(e) · Σ_a [cs(e) = a] · Σ_b table(a, b) · [ns(e) = b]; the
  reference's is edge_eng(e) · table(cs(e), ns(e)) read through a wrap by 16 and a clamp. Under the precondition every
  species is a label below 16, the wrap and the clamp do nothing, the double sum has one non-zero term, and the two
  values agree at every edge; so do the results.
-/
import proofs.«427242_j64080912056845_1_alg».proof.Defs
import proofs.«427242_j64080912056845_1_alg».proof.Proof.Gen.Pre_finite_inputs
import proofs.«427242_j64080912056845_1_alg».proof.Proof.HostValue
import proofs.«427242_j64080912056845_1_alg».proof.Proof.RefValue
import proofs.«427242_j64080912056845_1_alg».proof.Proof.PreDecode

set_option maxRecDepth 16384

noncomputable section

namespace Cert.Bridge

open Idealize.ShloMosaic Idealize.ShloMosaic.TcCoe Idealize.SL.Sem Cert.EdgeTerms

theorem algebraic : Cert.algebraic_KernelIdeal_ReferenceIdeal := by
  intro m ρ m' ρ' hpre hagree
  refine ⟨fun c => tail (centres (Cert.KernelIdeal.HostValue.eidx m c)) (Cert.KernelIdeal.HostValue.kerUpd m c),
    Cert.KernelIdeal.HostValue.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3⟩ := hagree c
  rw [Cert.RefValue.res_eq, h0, h1, h2, h3]
  refine congrArg (tail _) ?_
  funext j
  obtain ⟨e, u, rfl⟩ : ∃ (e : Fin 6400000) (u : Fin 1), j = ValueIdx.ix2 e u := ⟨j 0, j 1, ValueIdx.eq_ix2 j⟩
  have hsp := Cert.PreDecode.species_lt _ _ _ _ (hpre c)
  exact (Cert.RefValue.refUpd_apply _ _ _ _ hsp (ValueIdx.ix2 e u)).trans (Cert.KernelIdeal.HostValue.kerUpd_apply m c e u).symm

end Cert.Bridge

end
-- ==== Proof.lean ====
/-
  Per-atom energies from per-edge energies scaled by a species-pair table: the Pallas kernel against its jnp reference.

  Each edge e has a centre and a neighbour node; each node has a species. The reference multiplies the edge's energy by
  table(species(centre), species(neighbour)), scatter-adds the products into the centre nodes and multiplies by 1/8.
  The kernel computes the same product by a one-hot encoding: Σ_a [cs = a] · Σ_b table(a, b) · [ns = b], on 1000 × 128
  blocks of edges, and ends with the same scatter-add and the same 1/8.
  Where a species lies outside 0 … 15 the two differ (the one-hot sum is 0; the reference's lookup wraps and clamps),
  so the precondition states that every species is a label, 0 ≤ species < 16.
  The three frames are the generated ones (the reference's is its generated run with the result dropped); no
  operation was rewritten by the ideal pass, so `preserves` is trivial; the value claim is Proof/Bridge.lean.
-/
import proofs.«427242_j64080912056845_1_alg».proof.Defs
import proofs.«427242_j64080912056845_1_alg».proof.Proof.Gen.Kernel
import proofs.«427242_j64080912056845_1_alg».proof.Proof.Gen.Kernel.Skeleton
import proofs.«427242_j64080912056845_1_alg».proof.Proof.Gen.Kernel.Launch
import proofs.«427242_j64080912056845_1_alg».proof.Proof.Gen.Kernel.Points
import proofs.«427242_j64080912056845_1_alg».proof.Proof.Gen.Kernel.Frame
import proofs.«427242_j64080912056845_1_alg».proof.Proof.Gen.KernelIdeal
import proofs.«427242_j64080912056845_1_alg».proof.Proof.Gen.KernelIdeal.Skeleton
import proofs.«427242_j64080912056845_1_alg».proof.Proof.Gen.KernelIdeal.Launch
import proofs.«427242_j64080912056845_1_alg».proof.Proof.Gen.KernelIdeal.Points
import proofs.«427242_j64080912056845_1_alg».proof.Proof.Gen.KernelIdeal.Frame
import proofs.«427242_j64080912056845_1_alg».proof.Proof.Gen.ReferenceIdeal
import proofs.«427242_j64080912056845_1_alg».proof.Proof.Gen.ReferenceIdeal.Run
import proofs.«427242_j64080912056845_1_alg».proof.Proof.Gen.Pre_finite_inputs
import proofs.«427242_j64080912056845_1_alg».proof.Proof.Bridge
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_k, frame_ki, frame_ri, preserves, Cert.Bridge.algebraic⟩

end Cert.Proof

end
